-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x2048 .f32) (main_arg1 : IVec S32768 32) (main_arg2 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg1 main_v9
  let main_c_3 : IVec S_ 32 := constantI S_ 32 2048#32
  let main_v11 : IVec S32768 32 := broadcastInDim S32768 ![] bcast_S_S32768 main_c_3
  let main_v12 : IVec S32768 1 := cmpi .slt main_arg1 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768x2048 : Shape := ⟨2, ![32768, 2048]⟩
abbrev S32768 : Shape := ⟨1, ![32768]⟩
abbrev S2048 : Shape := ⟨1, ![2048]⟩
abbrev S_ : Shape := ⟨0, ![]⟩
abbrev S32768x1 : Shape := ⟨2, ![32768, 1]⟩
abbrev S1x2048 : Shape := ⟨2, ![1, 2048]⟩
abbrev S512x128 : Shape := ⟨2, ![512, 128]⟩
abbrev S512x2048 : Shape := ⟨2, ![512, 2048]⟩
abbrev S512x1 : Shape := ⟨2, ![512, 1]⟩
abbrev S8x128 : Shape := ⟨2, ![8, 128]⟩
abbrev S512 : Shape := ⟨1, ![512]⟩
abbrev S1 : Shape := ⟨1, ![1]⟩
abbrev S1x1 : Shape := ⟨2, ![1, 1]⟩

abbrev nBuf : Space → Nat
  | .hbm => 34
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768, .f32⟩
  | .hbm, ⟨20, _⟩ => ⟨S32768x1, .i32⟩
  | .hbm, ⟨21, _⟩ => ⟨S32768x1, .f32⟩
  | .hbm, ⟨22, _⟩ => ⟨S2048, .i32⟩
  | .hbm, ⟨23, _⟩ => ⟨S1x2048, .i32⟩
  | .hbm, ⟨24, _⟩ => ⟨S512x128, .f32⟩
  | .hbm, ⟨25, _⟩ => ⟨S512x1, .f32⟩
  | .hbm, ⟨26, _⟩ => ⟨S512, .f32⟩
  | .hbm, ⟨27, _⟩ => ⟨S_, .f32⟩
  | .hbm, ⟨28, _⟩ => ⟨S_, .f32⟩
  | .hbm, ⟨29, _⟩ => ⟨S512x1, .f32⟩
  | .hbm, ⟨30, _⟩ => ⟨S512, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S1x2048, .i32⟩
  | .local _ .vmem, ⟨7, _⟩ => ⟨S8x128, .f32⟩
  | .local _ .vmem, ⟨8, _⟩ => ⟨S8x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S32768_S32768x1 : S32768.ShapeCasts S32768x1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x2048_S512x2048 : S1x2048.Broadcasts S512x2048
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S512x128_S512x1_0_0 : S512x128.Slices ![0, 0] S512x1
  shapeCasts_S512x1_S512 : S512x1.ShapeCasts S512
  reducesTo_S512_S_d0 : S512.ReducesTo [0] S_
  h_S_ : 0 < S_.numel
  slices_S512x128_S512x1_0_1 : S512x128.Slices ![0, 1] S512x1
  gather_S2048_S32768x1_S32768_n_0_n_n_0_1_1_wf : GatherDims.WF S2048 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S32768x1.size a
  hwx0_2 : ∀ i : grid0.Coords, EltTy.bits .f32 = 32 ∨ (Rect.block (s := S32768x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .i32 = 32 ∨ (Rect.block (s := S1x2048) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S512x128.size a
  hwx0_4 : ∀ i : grid0.Coords, EltTy.bits .f32 = 32 ∨ (Rect.block (s := S512x128) S8x128.size (cc0_transform_4 i) (hinb0_4 i)).WholeWords (EltTy.packing .f32)

variable [Facts₀]

def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S32768 : Shape := ⟨1, ![32768]⟩
abbrev S2048 : Shape := ⟨1, ![2048]⟩
abbrev S_ : Shape := ⟨0, ![]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x1, .i32⟩
  | .hbm, ⟨19, _⟩ => ⟨S_, .i32⟩
  | .hbm, ⟨20, _⟩ => ⟨S32768x1, .i32⟩
  | .hbm, ⟨21, _⟩ => ⟨S32768x1, .i1⟩
  | .hbm, ⟨22, _⟩ => ⟨S_, .i32⟩
  | .hbm, ⟨23, _⟩ => ⟨S32768x1, .i32⟩
  | .hbm, ⟨24, _⟩ => ⟨S32768x1, .i32⟩
  | .hbm, ⟨25, _⟩ => ⟨S32768x1, .i32⟩
  | .hbm, ⟨26, _⟩ => ⟨S32768x1x1, .i32⟩
  | .hbm, ⟨27, _⟩ => ⟨S1, .i32⟩
  | .hbm, ⟨28, _⟩ => ⟨S_, .i32⟩
  | .hbm, ⟨29, _⟩ => ⟨S32768x1x1, .i32⟩
  | .hbm, ⟨30, _⟩ => ⟨S32768x1x1, .i1⟩
  | .hbm, ⟨31, _⟩ => ⟨S1x1x1, .i32⟩
  | .hbm, ⟨32, _⟩ => ⟨S32768x1x1, .i32⟩
  | .hbm, ⟨33, _⟩ => ⟨S32768x1x1, .i1⟩
  | .hbm, ⟨34, _⟩ => ⟨S32768x1x1, .i1⟩
  | .hbm, ⟨35, _⟩ => ⟨S_, .i1⟩
  | .hbm, ⟨36, _⟩ => ⟨S32768x1, .i1⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768, .f32⟩
  | .hbm, ⟨42, _⟩ => ⟨S32768, .f32⟩
  | .hbm, ⟨43, _⟩ => ⟨S_, .f32⟩
  | .hbm, ⟨44, _⟩ => ⟨S32768, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S32768, .f32⟩
  | .hbm, ⟨49, _⟩ => ⟨S_, .i32⟩
  | .hbm, ⟨50, _⟩ => ⟨S32768, .i32⟩
  | .hbm, ⟨51, _⟩ => ⟨S32768, .i1⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768, .i32⟩
  | .hbm, ⟨56, _⟩ => ⟨S32768x1, .i32⟩
  | .hbm, ⟨57, _⟩ => ⟨S32768, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S32768, .f32⟩
  | .hbm, ⟨64, _⟩ => ⟨S_, .f32⟩
  | .hbm, ⟨65, _⟩ => ⟨S32768, .f32⟩
  | .hbm, ⟨66, _⟩ => ⟨S32768, .f32⟩
  | .hbm, ⟨67, _⟩ => ⟨S32768, .f32⟩
  | .hbm, ⟨68, _⟩ => ⟨S_, .f32⟩
  | .hbm, ⟨69, _⟩ => ⟨S_, .f32⟩
  | .hbm, ⟨70, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_c : Ref sig .tc := ⟨.hbm, 49, rfl⟩
abbrev main_v9 : Ref sig .tc := ⟨.hbm, 50, rfl⟩
abbrev main_v10 : Ref sig .tc := ⟨.hbm, 51, rfl⟩
abbrev main_c_1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_2 : Ref sig .tc := ⟨.hbm, 58, rfl⟩
abbrev main_v16 : Ref sig .tc := ⟨.hbm, 59, rfl⟩
abbrev main_cst_3 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_5 : Ref sig .tc := ⟨.hbm, 68, rfl⟩
abbrev main_v23 : Ref sig .tc := ⟨.hbm, 69, rfl⟩
abbrev main_v24 : Ref sig .tc := ⟨.hbm, 70, rfl⟩

abbrev nD : Nat := 1
abbrev τ : Topo := Topo.v7x

variable {F : FTy → Type} [FloatOps F]

class Facts₀ : Prop where
  reducesTo_S32768x2048_S32768_d1 : S32768x2048.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  reducesTo_S32768_S_d0 : S32768.ReducesTo [0] S_
  gather_S32768x2048_S32768x1x1_S32768x1_n_1_0_0_1_2_11_wf : GatherDims.WF S32768x2048 S32768x1x1 S32768x1 [] [1] [0] [1] [0] 2 ![1, 1]
  gather_S2048_S32768x1_S32768_n_0_n_n_0_1_1_wf : GatherDims.WF S2048 S32768x1 S32768 [] [0] [] [0] [] 1 ![1]

variable [Facts₀]

def gather_S32768x2048_S32768x1x1_S32768x1_n_1_0_0_1_2_11 : GatherDims S32768x2048 S32768x1x1 S32768x1 where
  offsetDims := []
  collapsedSliceDims := [1]
  operandBatchingDims := [0]
  startIndicesBatchingDims := [0]
  startIndexMap := [1]
  indexVectorDim := 2
  sliceSizes := ![1, 1]
  wf := gather_S32768x2048_S32768x1x1_S32768x1_n_1_0_0_1_2_11_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf

class Facts : Prop extends Facts₀ where

variable [Facts]
-- ==== Proof.Spec.lean ====
/- The label-smoothing loss, row by row, in the two spellings the two programs compute it in, and the whole
   loss as the quotient of two sums over the rows.

   For one row of logits `a : Fin 2048 → EReal` with maximum `M` and `L = log (∑ⱼ exp (aⱼ − M))`, the log-probability of
   class `j` is `(aⱼ − M) − L`. One program forms the negative log-likelihood of the target class `t` and the
   negative mean log-probability from the log-probabilities themselves,
       `−((aₜ − M) − L)`   and   `−((∑ⱼ ((aⱼ − M) − L)) / 2048)`,
   the other from the row's own sums,
       `(L + M) − aₜ`   and   `(L + M) − (∑ⱼ aⱼ) · 2⁻¹¹`.
   Over the reals these agree; on the extended reals they need every entry of the row to be a real number. -/
import Idealize.ShloMosaic.PureOps.Ideal
import Idealize.ShloMosaic.Lib.ValueIdx
import Mathlib.Algebra.BigOperators.Group.Finset.Basic

noncomputable section

namespace Cert.LabelSmooth

open Idealize.ShloMosaic Idealize.ShloMosaic.ValueIdx
open scoped BigOperators

/-! The f32 words the programs spell, as the extended reals they denote. -/

/-- `−∞`: the value every maximum starts from. -/
abbrev negInf : EReal := Ideal.ofBits .f32 0xFF800000#32
/-- The zero a host sum starts from. -/
abbrev zero32 : EReal := Ideal.ofBits .f32 0x00000000#32
/-- The confidence `1 − smoothing`, as the f32 nearest `0.95`. -/
abbrev conf : EReal := Ideal.ofBits .f32 0x3F733333#32
/-- The smoothing weight, as the f32 nearest `0.05`. -/
abbrev smooth : EReal := Ideal.ofBits .f32 0x3D4CCCCD#32
/-- `2⁻¹¹`, the reciprocal of the number of classes. -/
abbrev invClasses : EReal := Ideal.ofBits .f32 0x3A000000#32
/-- `2048`, the number of classes. -/
abbrev classes : EReal := Ideal.ofBits .f32 0x45000000#32

/-- A row's maximum: the fold of `max` from `−∞` over the row. -/
def rowMax (a : Fin 2048 → EReal) : EReal := (Finset.univ : Finset (Fin 2048)).fold max negInf a

/-! The spelling through the row's own sums (sums that start from nothing). -/

/-- `log ∑ⱼ exp (aⱼ − M)`. -/
def lseK (a : Fin 2048 → EReal) : EReal := Ideal.log (∑ j, Ideal.exp (a j - rowMax a))

/-- One row's loss from the selected entry `sel` and the row's weight `wt`:
    `conf · ((L + M) − sel) · wt + smooth · ((L + M) − (∑ⱼ aⱼ) · 2⁻¹¹)`. -/
def lossK (a : Fin 2048 → EReal) (sel wt : EReal) : EReal :=
  conf * ((lseK a + rowMax a) - sel) * wt + smooth * ((lseK a + rowMax a) - (∑ j, a j) * invClasses)

/-! The spelling through the log-probabilities (sums that start from the host's zero). -/

/-- `log (0 + ∑ⱼ exp (aⱼ − M))`. -/
def lseR (a : Fin 2048 → EReal) : EReal := Ideal.log (zero32 + ∑ j, Ideal.exp (a j - rowMax a))

/-- The log-probability of class `j`: `(aⱼ − M) − L`. -/
def logp (a : Fin 2048 → EReal) (j : Fin 2048) : EReal := (a j - rowMax a) - lseR a

/-- One row's loss from the target class `t` and the row's weight `wt`:
    `conf · (−logp t) · wt + smooth · (−((0 + ∑ⱼ logp j) / 2048))`. -/
def lossR (a : Fin 2048 → EReal) (t : Fin 2048) (wt : EReal) : EReal :=
  conf * (-(logp a t)) * wt + smooth * (-(Ideal.div (zero32 + ∑ j, logp a j) classes))

/-- The whole loss: the rows' losses summed, over the rows' weights summed, both sums from the host's zero. -/
def total (loss wts : Fin 32768 → EReal) : EReal :=
  Ideal.div (zero32 + ∑ i, loss i) (zero32 + ∑ i, wts i)

/-! The two programs' results over the argument arrays: the logits `x` (32768 rows of 2048 classes), the target
    words `t` (one per row) and the class weights `w`. -/

/-- The class a target word names. For a word in `[0, 2048)` it is the word's value; the remainder keeps the
    definition total. -/
def cls (b : BitVec 32) : Fin 2048 := ⟨b.toNat % 2048, Nat.mod_lt _ (by decide)⟩

/-- Row `i` of the logits. -/
def rowOf (x : (⟨2, ![32768, 2048]⟩ : Shape).Idx → EReal) (i : Fin 32768) : Fin 2048 → EReal := fun j => x (ix2 i j)

/-- Row `i`'s weight: the weight of its target class. -/
def wts (t : (⟨1, ![32768]⟩ : Shape).Idx → BitVec 32) (w : (⟨1, ![2048]⟩ : Shape).Idx → EReal) (i : Fin 32768) : EReal :=
  w (ix1 (cls (t (ix1 i))))

/-- Row `i`'s loss, spelt through the row's own sums, the selected entry being the row's entry at the target class. -/
def kerLoss (x : (⟨2, ![32768, 2048]⟩ : Shape).Idx → EReal) (t : (⟨1, ![32768]⟩ : Shape).Idx → BitVec 32)
    (w : (⟨1, ![2048]⟩ : Shape).Idx → EReal) (i : Fin 32768) : EReal :=
  lossK (rowOf x i) (rowOf x i (cls (t (ix1 i)))) (wts t w i)

/-- Row `i`'s loss, spelt through the log-probabilities. -/
def refLoss (x : (⟨2, ![32768, 2048]⟩ : Shape).Idx → EReal) (t : (⟨1, ![32768]⟩ : Shape).Idx → BitVec 32)
    (w : (⟨1, ![2048]⟩ : Shape).Idx → EReal) (i : Fin 32768) : EReal :=
  lossR (rowOf x i) (cls (t (ix1 i))) (wts t w i)

/-- A target word is a class number. -/
def InRange (b : BitVec 32) : Prop := (0 : Int) ≤ b.toInt ∧ b.toInt < 2048

end Cert.LabelSmooth

end
-- ==== Proof.RefValue.lean ====
/- The reference's result as one formula of the argument arrays: the rows' losses, spelt through the log-probabilities,
   summed from the host's zero, over the rows' weights summed from the host's zero. A target word that is a class
   number is its own wrapped index, passes the range test the lookup makes, and names the entry both lookups read. -/
import proofs.«408928_j60928406061363_3_alg».proof.Proof.RefRead
import proofs.«408928_j60928406061363_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll
import Idealize.ShloMosaic.Lib.WordArith
import Idealize.ShloMosaic.PureOps.Ideal.Laws

noncomputable section

namespace Cert.ReferenceIdeal.RefValue

open Cert.ReferenceIdeal Cert.ReferenceIdeal.Gen Cert.ReferenceIdeal.ReadP Cert.LabelSmooth
open Idealize.ShloMosaic Idealize.ShloMosaic.ValueIdx
open scoped BigOperators

/-- The reduced index `ix1 i` with column `k` put back is (i, k). -/
theorem lift_row (h : S32768x2048.Reduces [1] S32768) (i : Fin 32768) (k : Fin (S32768x2048.size 1)) :
    h.lift (ix1 i) k = ix2 i (⟨k.val, k.isLt⟩ : Fin 2048) := by
  funext c; apply Fin.ext
  fin_cases c <;> rfl

/-- The word of `−∞` denotes the least extended real. -/
theorem negInf_eq_bot : negInf = (⊥ : EReal) := by
  simp [negInf, Ideal.ofBits, Ideal.ieee]

/-- The maximum-reduce over the classes, from `−∞`, is the row's maximum. -/
theorem rowMax_stage (x0 : (⟨S32768x2048, .f32⟩ : BufTy).Contents (Elt Ideal)) (i : Fin 32768) :
    val_main_call0_v0 (F := Ideal) x0 (ix1 i) = rowMax (rowOf x0 i) := by
  unfold val_main_call0_v0
  have h : S32768x2048.Reduces [1] S32768 := by decide
  refine (Host.reduce_eq_fold_single (FloatOps.maximumf (F := Ideal) (φ := .f32)) x0 (val_main_call0_cst (F := Ideal))
    reducesTo_S32768x2048_S32768_d1 h h_S_ (ix1 i)).trans ?_
  have hf : (x0 ∘ h.lift (ix1 i)) = rowOf x0 i := funext fun k => congrArg x0 (lift_row h i k)
  rw [hf]; rfl

/-- The further maximum with `−∞` changes nothing. -/
theorem rowMax_stage2 (x0 : (⟨S32768x2048, .f32⟩ : BufTy).Contents (Elt Ideal)) (i : Fin 32768) :
    val_main_call0_v2 (F := Ideal) x0 (ix1 i) = rowMax (rowOf x0 i) := by
  rw [val_main_call0_v2_apply, val_main_call0_v1_apply, val_main_call0_cst_0_apply, rowMax_stage]
  have hb : negInf ≤ rowMax (rowOf x0 i) := by rw [negInf_eq_bot]; exact bot_le
  exact max_eq_right hb

/-- The shifted logit `aⱼ − M`. -/
theorem sub_stage (x0 : (⟨S32768x2048, .f32⟩ : BufTy).Contents (Elt Ideal)) (i : Fin 32768) (j : Fin 2048) :
    val_main_call0_v5 (F := Ideal) x0 (ix2 i j) = x0 (ix2 i j) - rowMax (rowOf x0 i) := by
  rw [val_main_call0_v5_apply, val_main_call0_v4_apply, val_main_call0_v3_apply]
  have e : idx_main_call0_v3 (idx_main_call0_v4 (ix2 i j)) = ix1 i :=
    funext fun a => Fin.ext (by match a with | ⟨0, _⟩ => rfl)
  rw [e, rowMax_stage2]; rfl

/-- The sum of the exponentials of the shifted logits, from the host's zero. -/
theorem sumExp_stage (x0 : (⟨S32768x2048, .f32⟩ : BufTy).Contents (Elt Ideal)) (i : Fin 32768) :
    val_main_call0_v7 (F := Ideal) x0 (ix1 i)
      = zero32 + ∑ k : Fin 2048, Ideal.exp (x0 (ix2 i k) - rowMax (rowOf x0 i)) := by
  rw [val_main_call0_v7_apply]
  refine congrArg (zero32 + ·) (Finset.sum_congr rfl fun k _ => ?_)
  rw [val_main_call0_v6_apply]
  have e : idx_main_call0_v7 (ix1 i) k = ix2 i k :=
    funext fun a => Fin.ext (by match a with | ⟨0, _⟩ => rfl | ⟨1, _⟩ => rfl)
  rw [e, sub_stage]; rfl

/-- The log-probability of class `j` in row `i`. -/
theorem logp_stage (x0 : (⟨S32768x2048, .f32⟩ : BufTy).Contents (Elt Ideal)) (i : Fin 32768) (j : Fin 2048) :
    val_main_v0 (F := Ideal) x0 (ix2 i j) = logp (rowOf x0 i) j := by
  rw [val_main_v0_apply, val_main_call0_v10_apply, val_main_call0_v9_apply, val_main_call0_v8_apply, sub_stage]
  have e : idx_main_call0_v8 (idx_main_call0_v10 (ix2 i j)) = ix1 i :=
    funext fun a => Fin.ext (by match a with | ⟨0, _⟩ => rfl)
  rw [e, sumExp_stage]; rfl

/-- A class number read signed is the word's value, below 2048. -/
theorem inRange_toInt {b : BitVec 32} (hb : InRange b) : b.toInt = (b.toNat : Int) ∧ b.toNat < 2048 := by
  obtain ⟨h0, h1⟩ := hb
  have hc := BitVec.toInt_eq_toNat_cond b
  have hlt := b.isLt
  by_cases h : 2 * b.toNat < 2 ^ 32
  · rw [if_pos h] at hc
    exact ⟨hc, by omega⟩
  · rw [if_neg h] at hc
    omega

/-- A class number, read signed and clamped into the table, is the class it names. -/
theorem cls_val {b : BitVec 32} (hb : InRange b) : min b.toInt.toNat 2047 = (cls b).val := by
  obtain ⟨h1, h2⟩ := inRange_toInt hb
  have h3 : b.toInt.toNat = b.toNat := by rw [h1]; exact Int.toNat_natCast _
  show min b.toInt.toNat 2047 = b.toNat % 2048
  rw [h3]; omega

/-- A class number is its own wrapped index. -/
theorem wrap_eq {b : BitVec 32} (hb : InRange b) :
    Scalar.select (IntOp.cmpi .slt b 0#32) (IntOp.addi b 2048#32) b = b := by
  have h : IntOp.cmpi .slt b 0#32 = 0#1 := by
    apply eq_zero_of_ne_one
    rw [IntOp.cmpi_slt]
    have hz : (0#32 : BitVec 32).toInt = 0 := by decide
    rw [hz]; exact not_lt.2 hb.1
  rw [h, select_zero]

/-- A class number passes the lookup's range test. -/
theorem range_test {b : BitVec 32} (hb : InRange b) :
    IntOp.andi (IntOp.cmpi .sge b 0#32) (IntOp.cmpi .sle b 2047#32) = 1#1 := by
  refine IntOp.andi_eq_one.2 ⟨IntOp.cmpi_sge.2 ?_, IntOp.cmpi_sle.2 ?_⟩
  · have hz : (0#32 : BitVec 32).toInt = 0 := by decide
    rw [hz]; exact hb.1
  · have hz : (2047#32 : BitVec 32).toInt = 2047 := by decide
    rw [hz]; have := hb.2; omega

/-- The wrapped index of row `i`, as the lookup's start index, is the row's target word. -/
theorem idx_stage (x1 : (⟨S32768, .i32⟩ : BufTy).Contents (Elt Ideal)) (i : Fin 32768) (hb : InRange (x1 (ix1 i))) :
    val_main_call1_v5 (F := Ideal) x1 (ix3 i (0 : Fin 1) (0 : Fin 1)) = x1 (ix1 i) := by
  rw [val_main_call1_v5_apply, val_main_call1_v4_apply, val_main_call1_v1_apply, val_main_call1_v3_apply,
    val_main_v1_apply, val_main_call1_v0_apply, val_main_call1_c_apply, val_main_call1_v2_apply, val_main_call1_c_0_apply]
  have e : idx_main_v1 (idx_main_call1_v5 (ix3 i (0 : Fin 1) (0 : Fin 1))) = ix1 i :=
    funext fun a => Fin.ext (by
      match a with
      | ⟨0, _⟩ => show ((i.val * 1 + 0) * 1 + 0) / 1 = i.val; omega)
  rw [e]
  exact wrap_eq hb

/-- The batched lookup's operand index at row `i`: on the batching axis, the row. -/
theorem gather_row_coord0 (idx : IVec S32768x1x1 32) (i : Fin 32768) :
    (gather_S32768x2048_S32768x1x1_S32768x1_n_1_0_0_1_2_11.operandIdx (ix2 i (0 : Fin 1)) idx 0).val = i.val := by
  show GatherDims.start _ (ix2 i (0 : Fin 1)) idx 0 + GatherDims.batchCoord _ (ix2 i (0 : Fin 1)) 0
    + GatherDims.offCoord _ (ix2 i (0 : Fin 1)) 0 = i.val
  rw [GatherDims.start_batching _ _ _ _ (by decide), GatherDims.offCoord_eq_zero _ _ _ (by decide)]
  unfold GatherDims.batchCoord
  rw [dif_pos (by decide)]
  simp only [Nat.zero_add, Nat.add_zero]
  unfold GatherDims.siCoord
  simp only [Fin.val_cast]
  have e : ∀ X : Fin 2, X = 0 → ((ix2 i (0 : Fin 1) : S32768x1.Idx) X).val = i.val := by rintro _ rfl; rfl
  exact e _ (by decide)

/-- The batched lookup's operand index at row `i`: on the collapsed axis, the row's start index read signed and
    clamped into the classes. -/
theorem gather_row_coord1 (idx : IVec S32768x1x1 32) (i : Fin 32768) :
    (gather_S32768x2048_S32768x1x1_S32768x1_n_1_0_0_1_2_11.operandIdx (ix2 i (0 : Fin 1)) idx 1).val
      = min (idx (ix3 i (0 : Fin 1) (0 : Fin 1))).toInt.toNat 2047 := by
  show GatherDims.start _ (ix2 i (0 : Fin 1)) idx 1 + GatherDims.batchCoord _ (ix2 i (0 : Fin 1)) 1
    + GatherDims.offCoord _ (ix2 i (0 : Fin 1)) 1 = _
  rw [GatherDims.batchCoord_eq_zero _ _ _ (by decide), GatherDims.offCoord_eq_zero _ _ _ (by decide)]
  unfold GatherDims.start
  rw [dif_pos (by decide)]
  simp only [Nat.add_zero]
  refine congrArg₂ min (congrArg (fun q => (idx q).toInt.toNat) (funext fun b => Fin.ext ?_)) (by decide)
  have e0 : ∀ X : Fin 2, X = 0 → ((ix2 i (0 : Fin 1) : S32768x1.Idx) X).val = i.val := by rintro _ rfl; rfl
  have e1 : ∀ X : Fin 2, X = 1 → ((ix2 i (0 : Fin 1) : S32768x1.Idx) X).val = 0 := by rintro _ rfl; rfl
  unfold GatherDims.siIdx
  fin_cases b
  · rw [dif_neg (by decide)]
    unfold GatherDims.siCoord
    simp only [Fin.val_cast]
    exact e0 _ (by decide)
  · rw [dif_neg (by decide)]
    unfold GatherDims.siCoord
    simp only [Fin.val_cast]
    exact e1 _ (by decide)
  · rw [dif_pos (by decide)]
    show List.idxOf (1 : Fin 2) _ = 0
    decide

/-- The batched lookup at row `i`, its start index a class number `b`, reads the operand's row `i` at class `b`. -/
theorem gather_row {α : Type} (x : S32768x2048.Idx → α) (idx : IVec S32768x1x1 32) (i : Fin 32768) (b : BitVec 32)
    (hidx : idx (ix3 i (0 : Fin 1) (0 : Fin 1)) = b) (hb : InRange b) :
    Host.gather gather_S32768x2048_S32768x1x1_S32768x1_n_1_0_0_1_2_11 x idx (ix2 i (0 : Fin 1)) = x (ix2 i (cls b)) := by
  unfold Host.gather
  refine congrArg x (funext fun a => Fin.ext ?_)
  fin_cases a
  · exact gather_row_coord0 idx i
  · refine (gather_row_coord1 idx i).trans ?_
    rw [hidx]; exact cls_val hb

/-- The looked-up log-probability of row `i`: the one at the row's target class. -/
theorem take_stage (x0 : (⟨S32768x2048, .f32⟩ : BufTy).Contents (Elt Ideal)) (x1 : (⟨S32768, .i32⟩ : BufTy).Contents (Elt Ideal))
    (i : Fin 32768) (hb : InRange (x1 (ix1 i))) :
    val_main_call1_v13 (F := Ideal) x0 x1 (ix2 i (0 : Fin 1)) = logp (rowOf x0 i) (cls (x1 (ix1 i))) := by
  unfold val_main_call1_v13
  rw [gather_row _ _ i (x1 (ix1 i)) (idx_stage x1 i hb) hb, logp_stage]

/-- A fold over the one coordinate of an axis of size one. -/
theorem fold_fin_one {α : Type} (op : α → α → α) [Std.Commutative op] [Std.Associative op] {n : Nat} (hn : n = 1) (b : α)
    (f : Fin n → α) : Finset.fold op b f Finset.univ = op (f ⟨0, by omega⟩) b := by
  subst hn
  rw [Finset.univ_unique, Finset.fold_singleton]; rfl

/-- The reduced index (i, 0) with the coordinate `k` put back on the last axis is (i, 0, 0). -/
theorem lift_last (h : S32768x1x1.Reduces [2] S32768x1) (i : Fin 32768) (k : Fin (S32768x1x1.size 2)) :
    h.lift (ix2 i (0 : Fin 1)) k = ix3 i (0 : Fin 1) (0 : Fin 1) := by
  funext c; apply Fin.ext
  have hk : k.val = 0 := by have hlt : k.val < 1 := k.isLt; omega
  fin_cases c
  · rfl
  · rfl
  · exact hk

/-- The range test of row `i`, reduced by `and` over its one entry, passes. -/
theorem inb_stage (x1 : (⟨S32768, .i32⟩ : BufTy).Contents (Elt Ideal)) (i : Fin 32768) (hb : InRange (x1 (ix1 i))) :
    val_main_call1_v12 (F := Ideal) x1 (ix2 i (0 : Fin 1)) = 1#1 := by
  unfold val_main_call1_v12
  have h : S32768x1x1.Reduces [2] S32768x1 := by decide
  refine (Host.reduce_eq_fold_single (IntOp.andi (w := 1)) (val_main_call1_v11 (F := Ideal) x1) (val_main_call1_c_3 (F := Ideal))
    reducesTo_S32768x1x1_S32768x1_d2 h h_S_ (ix2 i (0 : Fin 1))).trans ?_
  refine (fold_fin_one IntOp.andi (n := S32768x1x1.size 2) rfl _ _).trans ?_
  show IntOp.andi (val_main_call1_v11 (F := Ideal) x1 (h.lift (ix2 i (0 : Fin 1)) _)) 1#1 = 1#1
  rw [lift_last, val_main_call1_v11_apply, val_main_call1_v7_apply, val_main_call1_v10_apply, idx_stage x1 i hb,
    val_main_call1_v6_apply, val_main_call1_c_2_apply, val_main_call1_v9_apply, val_main_call1_v8_apply,
    val_main_call1_c_1_apply, range_test hb]
  rfl

/-- The negative log-likelihood of row `i`. -/
theorem nll_stage (x0 : (⟨S32768x2048, .f32⟩ : BufTy).Contents (Elt Ideal)) (x1 : (⟨S32768, .i32⟩ : BufTy).Contents (Elt Ideal))
    (i : Fin 32768) (hb : InRange (x1 (ix1 i))) :
    val_main_v4 (F := Ideal) x0 x1 (ix1 i) = -(logp (rowOf x0 i) (cls (x1 (ix1 i)))) := by
  rw [val_main_v4_apply, val_main_v3_apply, val_main_v2_apply]
  have e : idx_main_v3 (ix1 i) = ix2 i (0 : Fin 1) :=
    funext fun a => Fin.ext (by
      match a with
      | ⟨0, _⟩ => show i.val / 1 = i.val; omega
      | ⟨1, _⟩ => rfl)
  rw [e, inb_stage x1 i hb, take_stage x0 x1 i hb, select_one]; rfl

/-- The negative mean log-probability of row `i`. -/
theorem smooth_stage (x0 : (⟨S32768x2048, .f32⟩ : BufTy).Contents (Elt Ideal)) (i : Fin 32768) :
    val_main_v8 (F := Ideal) x0 (ix1 i) = -(Ideal.div (zero32 + ∑ j, logp (rowOf x0 i) j) classes) := by
  rw [val_main_v8_apply, val_main_v7_apply, val_main_v5_apply, val_main_v6_apply]
  have hs : ∑ k : Fin 2048, val_main_v0 (F := Ideal) x0 (idx_main_v5 (ix1 i) k) = ∑ j, logp (rowOf x0 i) j :=
    Finset.sum_congr rfl fun k _ => by
      have e : idx_main_v5 (ix1 i) k = ix2 i k :=
        funext fun a => Fin.ext (by match a with | ⟨0, _⟩ => rfl | ⟨1, _⟩ => rfl)
      rw [e, logp_stage]
  rw [hs]; rfl

/-- The rank-1 index at a coordinate is the index whose one coordinate has that value. -/
theorem ix1_eq_ofFin {n : Nat} (p : Fin n) : ix1 p = Shape.Idx.ofFin p := by
  funext a; apply Fin.ext; fin_cases a; rfl

/-- The table lookup at row `i`, its start index a class number `b`, reads the table at class `b`. -/
theorem take_weight {α : Type} (x : S2048.Idx → α) (idx : IVec S32768x1 32) (i : Fin 32768) (b : BitVec 32)
    (hidx : idx (ix2 i (0 : Fin 1)) = b) (hb : InRange b) :
    Host.gather gather_S2048_S32768x1_S32768_n_0_n_n_0_1_1 x idx (ix1 i) = x (ix1 (cls b)) := by
  rw [ix1_eq_ofFin i]
  refine (StableHlo.Predicate.gather_take gather_S2048_S32768x1_S32768_n_0_n_n_0_1_1 rfl rfl rfl rfl x idx i (by decide)).trans
    (congrArg x ?_)
  funext a; apply Fin.ext; fin_cases a
  show min (idx (StableHlo.Predicate.ixP i)).toInt.toNat (2048 - 1) = (cls b).val
  have e : StableHlo.Predicate.ixP i = ix2 i (0 : Fin 1) := by funext c; fin_cases c <;> rfl
  rw [e, hidx]; exact cls_val hb

/-- The weight of row `i`: the weight of its target class. -/
theorem weight_stage (x1 : (⟨S32768, .i32⟩ : BufTy).Contents (Elt Ideal)) (x2 : (⟨S2048, .f32⟩ : BufTy).Contents (Elt Ideal))
    (i : Fin 32768) (hb : InRange (x1 (ix1 i))) :
    val_main_v15 (F := Ideal) x1 x2 (ix1 i) = wts x1 x2 i := by
  unfold val_main_v15
  have hidx : val_main_v14 (F := Ideal) x1 (ix2 i (0 : Fin 1)) = x1 (ix1 i) := by
    rw [val_main_v14_apply, val_main_v13_apply, val_main_v10_apply, val_main_v12_apply, val_main_v9_apply, val_main_c_apply,
      val_main_v11_apply, val_main_c_1_apply]
    have e : idx_main_v14 (ix2 i (0 : Fin 1)) = ix1 i := funext fun a => Fin.ext (by match a with | ⟨0, _⟩ => rfl)
    rw [e]; exact wrap_eq hb
  rw [take_weight _ _ i _ hidx hb]; rfl

/-- The loss of row `i`, spelt through the log-probabilities. -/
theorem loss_stage (x0 : (⟨S32768x2048, .f32⟩ : BufTy).Contents (Elt Ideal)) (x1 : (⟨S32768, .i32⟩ : BufTy).Contents (Elt Ideal))
    (x2 : (⟨S2048, .f32⟩ : BufTy).Contents (Elt Ideal)) (i : Fin 32768) (hb : InRange (x1 (ix1 i))) :
    val_main_v22 (F := Ideal) x0 x1 x2 (ix1 i) = refLoss x0 x1 x2 i := by
  rw [val_main_v22_apply, val_main_v19_apply, val_main_v18_apply, val_main_v21_apply, val_main_v17_apply, val_main_cst_3_apply,
    val_main_v20_apply, val_main_cst_4_apply, nll_stage x0 x1 i hb, smooth_stage, weight_stage x1 x2 i hb]
  rfl

/-- The rows' indices are their coordinates. -/
def rowEquiv : S32768.Idx ≃ Fin 32768 where
  toFun j := j 0
  invFun := ix1
  left_inv j := (eq_ix1 j).symm
  right_inv _ := rfl

/-- The reference's last stage, of arguments whose target words are class numbers, is the whole loss of the rows'
    losses spelt through the log-probabilities. -/
theorem ref_value (x0 : (⟨S32768x2048, .f32⟩ : BufTy).Contents (Elt Ideal)) (x1 : (⟨S32768, .i32⟩ : BufTy).Contents (Elt Ideal))
    (x2 : (⟨S2048, .f32⟩ : BufTy).Contents (Elt Ideal)) (ht : ∀ i : Fin 32768, InRange (x1 (ix1 i))) :
    val_main_v24 (F := Ideal) x0 x1 x2 = fun _ => total (refLoss x0 x1 x2) (wts x1 x2) := by
  funext c
  rw [val_main_v24_apply, val_main_v23_apply, val_main_v16_apply]
  have hl : ∑ j : S32768.Idx, val_main_v22 (F := Ideal) x0 x1 x2 j = ∑ i, refLoss x0 x1 x2 i :=
    Fintype.sum_equiv rowEquiv _ _ fun j => by
      obtain ⟨a, rfl⟩ : ∃ a, j = ix1 a := ⟨j 0, eq_ix1 j⟩
      exact loss_stage x0 x1 x2 a (ht a)
  have hw : ∑ j : S32768.Idx, val_main_v15 (F := Ideal) x1 x2 j = ∑ i, wts x1 x2 i :=
    Fintype.sum_equiv rowEquiv _ _ fun j => by
      obtain ⟨a, rfl⟩ : ∃ a, j = ix1 a := ⟨j 0, eq_ix1 j⟩
      exact weight_stage x1 x2 a (ht a)
  rw [hl, hw]
  rfl

end Cert.ReferenceIdeal.RefValue

end
-- ==== Proof.Payload.lean ====
/- What one grid point of the kernel leaves in its 8 × 128 output block, entry by entry: the tile's 512 row losses
   summed at entry (0, 0), the tile's 512 row weights summed at entry (0, 1), and zero at every other entry. The row
   loss is the spelling through the row's own sums, its selected entry the row summed under the mask "the column's
   class id is the row's target word". -/
import proofs.«408928_j60928406061363_3_alg».proof.Proof.Gen.KernelIdeal.Frame
import proofs.«408928_j60928406061363_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.LabelSmooth
open Idealize.ShloMosaic Idealize.ShloMosaic.ValueIdx
open scoped BigOperators

/-- Row `q` of a tile of logits. -/
def tileRow (x0 : Vec Ideal S512x2048 .f32) (q : Fin 512) : Fin 2048 → EReal := fun j => x0 (ix2 q j)

/-- Row `q`'s selected entry: the row summed under the mask "class id = target word", zero elsewhere. -/
def tileSel (x0 : Vec Ideal S512x2048 .f32) (x1 : Vec Ideal S512x1 .i32) (x3 : Vec Ideal S1x2048 .i32) (q : Fin 512) : EReal :=
  ∑ j : Fin 2048, Scalar.select (IntOp.cmpi .eq (x3 (ix2 (0 : Fin 1) j)) (x1 (ix2 q (0 : Fin 1)))) (x0 (ix2 q j)) zero32

/-- The tile's numerator: its 512 row losses summed. -/
def tileNum (x0 : Vec Ideal S512x2048 .f32) (x1 : Vec Ideal S512x1 .i32) (x2 : Vec Ideal S512x1 .f32) (x3 : Vec Ideal S1x2048 .i32) : EReal :=
  ∑ q : Fin 512, lossK (tileRow x0 q) (tileSel x0 x1 x3 q) (x2 (ix2 q (0 : Fin 1)))

/-- The tile's denominator: its 512 row weights summed. -/
def tileDen (x2 : Vec Ideal S512x1 .f32) : EReal := ∑ q : Fin 512, x2 (ix2 q (0 : Fin 1))

/-! ## The block is the payload

The body stores once, through the whole 8 × 128 block, and loads each operand through its whole block: the block it
leaves is the payload of the stored value over the operands themselves. -/

/-- The zero offsets, as the constant function. -/
theorem zero_offsets : (![0, 0] : Fin 2 → Nat) = fun _ => 0 := funext fun a => by fin_cases a <;> rfl

/-- The output block is the stored payload of the operand blocks. -/
theorem out_eq (x0 : Vec Ideal S512x2048 .f32) (x1 : Vec Ideal S512x1 .i32) (x2 : Vec Ideal S512x1 .f32)
    (x3 : Vec Ideal S1x2048 .i32) :
    out0_4 (F := Ideal) x0 x1 x2 x3
      = k0_pay1 (k0_pay3 x0 x1 x2 x3) (k0_pay4 x2) (iota .tc S8x128 32 [0] iota_S8x128_d0_w32) := by
  unfold out0_4
  rw [View.canon_unit_zero zero_offsets]
  simp only [View.ld_unit_zero (S := S512x2048) zero_offsets, View.ld_unit_zero (S := S512x1) zero_offsets,
    View.ld_unit_zero (S := S1x2048) zero_offsets]

/-! ## Layout operations read at an index given by coordinates -/

/-- A vector `[a]` cast to the column `[a, 1]` reads, at `(i, u)`, the vector at `i`: both sit at row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1, 1]` array broadcast over an `[a, b]` block reads that entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The reductions read at an index: a row's lanes summed, a row's maximum, a column's rows summed

Each reduction drops one axis; its value at a kept index is the sum (or the fold of `max` from `−∞`) over the dropped
axis's coordinates, the source read at the kept index with the coordinate put back. At these literal shapes the
index so rebuilt is `(q, j)`. -/

/-- The lanes of row `q` summed: no initial value is added. -/
theorem sum_lanes (src : FVec Ideal S512x2048 .f32) (hφ : FKind.Formats .f32)
    (hacc : (0x00000000#32 : BitVec 32) = 0x00000000#32) (q : Fin 512) :
    multiReduction .add [1] S512 src 0x00000000#32 reduces_S512x2048_S512 hφ hacc (ix1 q)
      = ∑ j : Fin 2048, src (ix2 q j) := by
  refine (Ideal.multiReduction_add_single src 0x00000000#32 reduces_S512x2048_S512 hφ hacc (ix1 q)).trans ?_
  refine Finset.sum_congr rfl fun j _ => congrArg src ?_
  funext ax; apply Fin.ext
  match ax with
  | ⟨0, _⟩ => rfl
  | ⟨1, _⟩ => rfl

/-- The 512 rows of a column summed. -/
theorem sum_rows (src : FVec Ideal S512x1 .f32) (hφ : FKind.Formats .f32)
    (hacc : (0x00000000#32 : BitVec 32) = 0x00000000#32) :
    multiReduction .add [0] S1 src 0x00000000#32 reduces_S512x1_S1 hφ hacc (ix1 (0 : Fin 1))
      = ∑ q : Fin 512, src (ix2 q (0 : Fin 1)) := by
  refine (Ideal.multiReduction_add_single src 0x00000000#32 reduces_S512x1_S1 hφ hacc (ix1 (0 : Fin 1))).trans ?_
  refine Finset.sum_congr rfl fun q _ => congrArg src ?_
  funext ax; apply Fin.ext
  match ax with
  | ⟨0, _⟩ => rfl
  | ⟨1, _⟩ => rfl

/-- The maximum over the lanes of row `q` is the row's `rowMax`: the fold of `max` from `−∞`. -/
theorem max_lanes (src : FVec Ideal S512x2048 .f32) (hφ : FKind.Formats .f32)
    (hacc : (0xFF800000#32 : BitVec 32) = 0xFF800000#32) (q : Fin 512) :
    multiReduction .maximumf [1] S512 src 0xFF800000#32 reduces_S512x2048_S512 hφ hacc (ix1 q)
      = rowMax (fun j => src (ix2 q j)) := by
  refine (Ideal.multiReduction_maximumf_single src 0xFF800000#32 reduces_S512x2048_S512 hφ hacc (ix1 q)).trans ?_
  have e : (src ∘ reduces_S512x2048_S512.lift (ix1 q)) = fun j : Fin 2048 => src (ix2 q j) := by
    funext j; refine congrArg src ?_
    funext ax; apply Fin.ext
    match ax with
    | ⟨0, _⟩ => rfl
    | ⟨1, _⟩ => rfl
  exact congrArg (fun f : Fin 2048 → EReal => (Finset.univ : Finset (Fin 2048)).fold max negInf f) e

/-! ## Pointwise operations read at an index -/

/-- The exponential of a vector at an index is the exponential of the element. -/
theorem exp_apply {s : Shape} {φ : FTy} (x : FVec Ideal s φ) (i : s.Idx) :
    Idealize.ShloMosaic.exp x i = Ideal.exp (x i) := rfl
/-- The logarithm of a vector at an index is the logarithm of the element. -/
theorem log_apply {s : Shape} {φ : FTy} (x : FVec Ideal s φ) (i : s.Idx) :
    Idealize.ShloMosaic.log x i = Ideal.log (x i) := rfl
/-- An integer comparison at an index compares the elements. -/
theorem cmpi_apply {s : Shape} {w : ℕ} (p : CmpIPredicate) (x y : IVec s w) (i : s.Idx) :
    cmpi p x y i = IntOp.cmpi p (x i) (y i) := rfl
/-- A bitwise conjunction at an index is the conjunction of the elements. -/
theorem andi_apply {s : Shape} {w : ℕ} (x y : IVec s w) (i : s.Idx) : andi x y i = IntOp.andi (x i) (y i) := rfl

/-! ## The two partial sums: the tile's weights, and the tile's losses -/

/-- The denominator payload at its one entry: the tile's 512 row weights summed. -/
theorem pay4_apply (x2 : Vec Ideal S512x1 .f32) :
    k0_pay4 (F := Ideal) x2 (ix2 (0 : Fin 1) (0 : Fin 1)) = tileDen x2 := by
  unfold k0_pay4 k0_pay2
  refine (shapeCast_a_1a_apply _ shapeCasts_S1_S1x1 (0 : Fin 1) (0 : Fin 1)).trans ?_
  refine (sum_rows _ _ _).trans ?_
  rw [shapeCast_self]
  rfl

/-- The numerator payload at its one entry: the tile's 512 row losses summed. Row `q`'s summand is, operation by
    operation, `conf · ((L + M) − sel) · wt + smooth · ((L + M) − (∑ⱼ aⱼ) · 2⁻¹¹)` with `M` the row's maximum,
    `L = log ∑ⱼ exp (aⱼ − M)`, `sel` the row summed under the mask and `wt` the row's weight: `lossK` of the row. -/
theorem pay3_apply (x0 : Vec Ideal S512x2048 .f32) (x1 : Vec Ideal S512x1 .i32) (x2 : Vec Ideal S512x1 .f32)
    (x3 : Vec Ideal S1x2048 .i32) :
    k0_pay3 (F := Ideal) x0 x1 x2 x3 (ix2 (0 : Fin 1) (0 : Fin 1)) = tileNum x0 x1 x2 x3 := by
  unfold k0_pay3 k0_pay2
  refine (shapeCast_a_1a_apply _ shapeCasts_S1_S1x1 (0 : Fin 1) (0 : Fin 1)).trans ?_
  refine (sum_rows _ _ _).trans ?_
  unfold tileNum
  refine Finset.sum_congr rfl fun q _ => ?_
  simp -dsimp only [addf_apply, mulf_apply, subf_apply, broadcast_apply, log_apply, exp_apply, select_apply, cmpi_apply,
    shapeCast_a_a1_apply, broadcastTo_a1_ab_apply, broadcastTo_1b_ab_apply, shapeCast_self, sum_lanes, max_lanes,
    Ideal.ofBits_def]
  rfl

/-! ## Where the two sums land in the block -/

/-- Comparing two naturals below `2³²` as 32-bit words compares the naturals. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  show BitVec.ofBool (BitVec.ofNat 32 n == BitVec.ofNat 32 k) = _
  by_cases h : n = k
  · subst h; rw [if_pos rfl, beq_self_eq_true]; rfl
  · rw [if_neg h]
    have e : (BitVec.ofNat 32 n == BitVec.ofNat 32 k) = false := by
      rw [beq_eq_false_iff_ne]; intro e
      have e' := congrArg BitVec.toNat e
      rw [BitVec.toNat_ofNat, BitVec.toNat_ofNat, Nat.mod_eq_of_lt hn, Nat.mod_eq_of_lt hk] at e'
      exact h e'
    rw [e]; rfl

/-- A select on the conjunction of two decided bits is the `if` on the conjunction of what they decide. -/
theorem select_andi_ite {α : Type} (p q : Prop) [Decidable p] [Decidable q] (A B : α) :
    Scalar.select (IntOp.andi (if p then 1#1 else 0#1) (if q then 1#1 else 0#1)) A B = if p ∧ q then A else B := by
  by_cases hp : p <;> by_cases hq : q
  · rw [if_pos hp, if_pos hq, if_pos ⟨hp, hq⟩]; rfl
  · rw [if_pos hp, if_neg hq, if_neg (fun h => hq h.2)]; rfl
  · rw [if_neg hp, if_pos hq, if_neg (fun h => hp h.1)]; rfl
  · rw [if_neg hp, if_neg hq, if_neg (fun h => hp h.1)]; rfl

/-- The stored payload at entry `(a, b)`: the row and lane numbers there are `a` and `b`, so the mask "row 0 and
    lane 0" keeps the first sum, the mask "row 0 and lane 1" the second, and every other entry is zero. -/
theorem pay1_apply (v37 v39 : FVec Ideal S1x1 .f32) (a : Fin 8) (b : Fin 128) :
    k0_pay1 (F := Ideal) v37 v39 (iota .tc S8x128 32 [0] iota_S8x128_d0_w32) (ix2 a b)
      = if a.val = 0 ∧ b.val = 0 then v37 (ix2 (0 : Fin 1) (0 : Fin 1))
        else if a.val = 0 ∧ b.val = 1 then v39 (ix2 (0 : Fin 1) (0 : Fin 1)) else zero32 := by
  unfold k0_pay1
  simp -dsimp only [select_apply, andi_apply, cmpi_apply, broadcast_apply, broadcastTo_11_ab_apply, shapeCast_self,
    iota_single_apply, Ideal.ofBits_def]
  show Scalar.select
      (IntOp.andi (IntOp.cmpi .eq (BitVec.ofNat 32 a.val) (BitVec.ofNat 32 0))
        (IntOp.cmpi .eq (BitVec.ofNat 32 b.val) (BitVec.ofNat 32 0)))
      (v37 (ix2 (0 : Fin 1) (0 : Fin 1)))
      (Scalar.select
        (IntOp.andi (IntOp.cmpi .eq (BitVec.ofNat 32 a.val) (BitVec.ofNat 32 0))
          (IntOp.cmpi .eq (BitVec.ofNat 32 b.val) (BitVec.ofNat 32 1)))
        (v39 (ix2 (0 : Fin 1) (0 : Fin 1))) zero32) = _
  have ha : a.val < 2 ^ 32 := by have := a.isLt; omega
  have hb : b.val < 2 ^ 32 := by have := b.isLt; omega
  rw [cmpi_eq_ofNat a.val 0 ha (by decide), cmpi_eq_ofNat b.val 0 hb (by decide),
    cmpi_eq_ofNat b.val 1 hb (by decide), select_andi_ite, select_andi_ite]

/-- The output block of one grid point, at entry `(a, b)`. -/
theorem out_apply (x0 : Vec Ideal S512x2048 .f32) (x1 : Vec Ideal S512x1 .i32) (x2 : Vec Ideal S512x1 .f32)
    (x3 : Vec Ideal S1x2048 .i32) (a : Fin 8) (b : Fin 128) :
    out0_4 (F := Ideal) x0 x1 x2 x3 (ix2 a b)
      = if a.val = 0 ∧ b.val = 0 then tileNum x0 x1 x2 x3
        else if a.val = 0 ∧ b.val = 1 then tileDen x2 else zero32 := by
  rw [out_eq]
  refine (pay1_apply _ _ a b).trans ?_
  rw [pay3_apply, pay4_apply]

end Cert.KernelIdeal.Payload

end
-- ==== Proof.Prefix.lean ====
/- What the kernel's region finds in the three arrays the host lines before it compute: the target words clipped to
   [0, 2047] (a class number is left as it is), each row's weight gathered from the class weights at the row's
   target class, and the class ids 0, 1, …, 2047 laid out as one row. -/
import proofs.«408928_j60928406061363_3_alg».proof.Proof.Gen.KernelIdeal.Frame
import proofs.«408928_j60928406061363_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.WordArith
import Idealize.ShloMosaic.Lib.IdealHost
import Idealize.ShloMosaic.Lib.StableHlo.Predicate

noncomputable section

namespace Cert.KernelIdeal.Prefix

open Cert.KernelIdeal Cert.KernelIdeal.Gen Cert.LabelSmooth
open Idealize.ShloMosaic Idealize.ShloMosaic.TcCoe Idealize.ShloMosaic.ValueIdx Idealize.SL.Sem

variable (m : (ℓ : Loc nD τ sig) → Buf (Elt Ideal) ℓ)

/-- The target words as launched. -/
abbrev tgt (c : Dev nD) : IVec S32768 32 := m ((c.tc : Thread nD τ).loc main_arg1)
/-- The class weights as launched. -/
abbrev clw (c : Dev nD) : FVec Ideal S2048 .f32 := m ((c.tc : Thread nD τ).loc main_arg2)
/-- The logits as launched. -/
abbrev logits (c : Dev nD) : FVec Ideal S32768x2048 .f32 := m ((c.tc : Thread nD τ).loc main_arg0)

/-! Contents carried to a typed reference's buffer and back. -/

/-- The two transports of a typed reference cancel. -/
theorem ofBuf_toBuf {T : BufTy} (x : StableHlo.TRef sig T) (v : T.Contents (Elt Ideal)) : x.ofBuf (x.toBuf v) = v := by
  obtain ⟨r, h, _, _⟩ := x; subst h; rfl

/-- At the literal reference of the targets the transport is the identity. -/
theorem ofBuf_main_arg1 (h1 h2 h3) (u : main_arg1.ty.Contents (Elt Ideal)) :
    (StableHlo.TRef.of (T := ⟨S32768, .i32⟩) main_arg1 h1 h2 h3).ofBuf u = u := rfl
/-- At the literal reference of the lower bound the transport is the identity. -/
theorem ofBuf_main_c (h1 h2 h3) (u : main_c.ty.Contents (Elt Ideal)) :
    (StableHlo.TRef.of (T := ⟨S_, .i32⟩) main_c h1 h2 h3).ofBuf u = u := rfl
/-- At the literal reference of the upper bound the transport is the identity. -/
theorem ofBuf_main_c_0 (h1 h2 h3) (u : main_c_0.ty.Contents (Elt Ideal)) :
    (StableHlo.TRef.of (T := ⟨S_, .i32⟩) main_c_0 h1 h2 h3).ofBuf u = u := rfl
/-- At the literal reference of the clipped targets the transport is the identity. -/
theorem toBuf_main_v0 (h1 h2 h3) (u : (⟨S32768, .i32⟩ : BufTy).Contents (Elt Ideal)) :
    (StableHlo.TRef.of (T := ⟨S32768, .i32⟩) main_v0 h1 h2 h3).toBuf u = u := rfl

/-! The words. -/

/-- A class number is not negative, so the larger of it and 0 is itself; it is below 2048, so the smaller of that
    and 2047 is itself. -/
theorem clip_word {b : BitVec 32} (h : InRange b) : IntOp.minsi 2047#32 (IntOp.maxsi 0#32 b) = b := by
  obtain ⟨h0, h1⟩ := h
  have e0 : (0#32 : BitVec 32).toInt = 0 := by decide
  have e1 : (2047#32 : BitVec 32).toInt = 2047 := by decide
  have hmax : IntOp.maxsi 0#32 b = b := by
    unfold IntOp.maxsi
    exact if_neg (by rw [BitVec.slt_iff_toInt_lt, e0]; omega)
  rw [hmax]
  unfold IntOp.minsi
  exact if_neg (by rw [BitVec.slt_iff_toInt_lt, e1]; omega)

/-- A class number is not below 0, so the select on "below 0" keeps it. -/
theorem wrap_word {b : BitVec 32} (h : InRange b) :
    Scalar.select (IntOp.cmpi .slt b 0#32) (IntOp.addi b 2048#32) b = b := by
  have e0 : (0#32 : BitVec 32).toInt = 0 := by decide
  have hs : b.slt 0#32 = false := by
    rw [Bool.eq_false_iff]
    intro hs
    rw [BitVec.slt_iff_toInt_lt, e0] at hs
    exact absurd h.1 (by omega)
  show Scalar.select (BitVec.ofBool (b.slt 0#32)) _ b = b
  rw [hs]
  exact select_zero _ _

/-- A class number, read signed and clamped into [0, 2047], is the class it names. -/
theorem clamp_word {b : BitVec 32} (h : InRange b) : min b.toInt.toNat (2048 - 1) = (cls b).val := by
  obtain ⟨h0, h1⟩ := h
  have e := BitVec.toInt_eq_toNat_cond b
  have hb := b.isLt
  show min b.toInt.toNat (2048 - 1) = b.toNat % 2048
  split at e <;> omega

/-! The layouts. -/

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The two spellings of a rank-1 index. -/
theorem ix1_eq_ofFin {n : ℕ} (i : Fin n) : ix1 i = Shape.Idx.ofFin i := Shape.Idx.eq_ofFin (ix1 i)

/-! The host lines' arrays as functions of the launched ones. -/

/-- The target words clipped to [0, 2047]: the larger of each word and 0, then the smaller of that and 2047. -/
def clipped (t : IVec S32768 32) : IVec S32768 32 :=
  minsi (broadcastInDim S32768 ![] bcast_S_S32768 (constantI S_ 32 2047#32))
    (maxsi (broadcastInDim S32768 ![] bcast_S_S32768 (constantI S_ 32 0#32)) t)

/-- The gather's start indices: a clipped word below 0 is moved up by 2048, the others are kept. -/
def starts (t : IVec S32768 32) : IVec S32768 32 :=
  select (cmpi .slt (clipped t) (broadcastInDim S32768 ![] bcast_S_S32768 (constantI S_ 32 0#32)))
    (addi (clipped t) (broadcastInDim S32768 ![] bcast_S_S32768 (constantI S_ 32 2048#32))) (clipped t)

/-- The clip at one word. -/
theorem clipped_apply (t : IVec S32768 32) (j : S32768.Idx) :
    clipped t j = IntOp.minsi 2047#32 (IntOp.maxsi 0#32 (t j)) := by
  show IntOp.minsi (broadcastInDim S32768 ![] bcast_S_S32768 (constantI S_ 32 2047#32) j)
      (IntOp.maxsi (broadcastInDim S32768 ![] bcast_S_S32768 (constantI S_ 32 0#32) j) (t j)) = _
  rw [broadcastInDim_scalar_apply, broadcastInDim_scalar_apply]
  rfl

/-- The start index at one word. -/
theorem starts_apply (t : IVec S32768 32) (j : S32768.Idx) :
    starts t j = Scalar.select (IntOp.cmpi .slt (clipped t j) 0#32) (IntOp.addi (clipped t j) 2048#32) (clipped t j) := by
  show Scalar.select (IntOp.cmpi .slt (clipped t j) (broadcastInDim S32768 ![] bcast_S_S32768 (constantI S_ 32 0#32) j))
      (IntOp.addi (clipped t j) (broadcastInDim S32768 ![] bcast_S_S32768 (constantI S_ 32 2048#32) j)) (clipped t j) = _
  rw [broadcastInDim_scalar_apply, broadcastInDim_scalar_apply]
  rfl

/-- The clipped targets as the region finds them: the clip of the launched words, as a column. -/
theorem V_v8 (c : Dev nD) :
    (V m c main_v8 : IVec S32768x1 32) = shapeCast S32768x1 (clipped (tgt m c)) shapeCasts_S32768_S32768x1 := by
  dsimp only [Gen.V, Gen.V0]
  simp only [Gen.hostOps0, Gen.hostOps0_1, Gen.hostOps0_2, List.flatten_cons, List.flatten_nil, List.append_nil,
    List.cons_append, List.nil_append]
  after_results
  simp only [ofBuf_toBuf, ofBuf_main_arg1, ofBuf_main_c, ofBuf_main_c_0, toBuf_main_v0]
  rfl

/-- The gathered weights as the region finds them: the class weights taken at the start indices, as a column. -/
theorem V_v9 (c : Dev nD) :
    (V m c main_v9 : FVec Ideal S32768x1 .f32)
      = shapeCast S32768x1
          (Host.gather gather_S2048_S32768x1_S32768_n_0_n_n_0_1_1 (clw m c)
            (broadcastInDim S32768x1 ![0] bcast_S32768_S32768x1_0 (starts (tgt m c))))
          shapeCasts_S32768_S32768x1 := by
  dsimp only [Gen.V, Gen.V0]
  simp only [Gen.hostOps0, Gen.hostOps0_1, Gen.hostOps0_2, List.flatten_cons, List.flatten_nil, List.append_nil,
    List.cons_append, List.nil_append]
  after_results_simp
  simp only [ofBuf_toBuf, ofBuf_main_arg1, ofBuf_main_c, ofBuf_main_c_0, toBuf_main_v0]
  rfl

/-- The class ids as the region finds them: the positions 0, 1, …, 2047, as a row. -/
theorem V_v11 (c : Dev nD) :
    (V m c main_v11 : IVec S1x2048 32) = shapeCast S1x2048 (iotaInDim S2048 32 0) shapeCasts_S2048_S1x2048 := by
  dsimp only [Gen.V, Gen.V0]
  simp only [Gen.hostOps0, Gen.hostOps0_1, Gen.hostOps0_2, List.flatten_cons, List.flatten_nil, List.append_nil,
    List.cons_append, List.nil_append]
  after_results
  rfl

/-- The clipped targets, as a column: a class number is its own clip. -/
theorem V_targets (c : Dev nD) (i : Fin 32768) (hi : InRange (tgt m c (ix1 i))) :
    (V m c main_v8 : IVec S32768x1 32) (ix2 i (0 : Fin 1)) = tgt m c (ix1 i) := by
  rw [V_v8, shapeCast_a_a1_apply, clipped_apply]
  exact clip_word hi

/-- The gathered weights, as a column: row `i` holds the weight of its target class. -/
theorem V_weights (c : Dev nD) (i : Fin 32768) (hi : InRange (tgt m c (ix1 i))) :
    (V m c main_v9 : FVec Ideal S32768x1 .f32) (ix2 i (0 : Fin 1)) = wts (tgt m c) (clw m c) i := by
  rw [V_v9, shapeCast_a_a1_apply, ix1_eq_ofFin]
  refine (StableHlo.Predicate.gather_take gather_S2048_S32768x1_S32768_n_0_n_n_0_1_1 rfl rfl rfl rfl (clw m c) _ i
    (by decide)).trans ?_
  have hidx : broadcastInDim S32768x1 ![0] bcast_S32768_S32768x1_0 (starts (tgt m c)) (StableHlo.Predicate.ixP i)
      = tgt m c (ix1 i) := by
    rw [StableHlo.Predicate.bcast_col1, ← ix1_eq_ofFin, starts_apply, clipped_apply, clip_word hi]
    exact wrap_word hi
  unfold wts
  refine congrArg (clw m c) ?_
  funext a
  match a with
  | ⟨0, _⟩ =>
    refine Fin.ext ?_
    show min (broadcastInDim S32768x1 ![0] bcast_S32768_S32768x1_0 (starts (tgt m c))
      (StableHlo.Predicate.ixP i)).toInt.toNat (2048 - 1) = (cls (tgt m c (ix1 i))).val
    rw [hidx]
    exact clamp_word hi

/-- The class ids, as a row: column `j` holds the word `j`. -/
theorem V_classIds (c : Dev nD) (j : Fin 2048) :
    (V m c main_v11 : IVec S1x2048 32) (ix2 (0 : Fin 1) j) = BitVec.ofNat 32 j.val := by
  rw [V_v11, shapeCast_a_1a_apply]
  rfl

/-- The logits are as launched. -/
theorem V_logits (c : Dev nD) : (V m c main_arg0 : FVec Ideal S32768x2048 .f32) = logits m c := V_main_arg0 m c

end Cert.KernelIdeal.Prefix

end
-- ==== Proof.Blocks.lean ====
/- The kernel's output array after the run: 64 blocks of 8 × 128, block `p` what grid point `p` left, which is the
   body's result on tile `p` of the logits, of the clipped targets, of the gathered weights, and the row of class ids. -/
import proofs.«408928_j60928406061363_3_alg».proof.Proof.Gen.KernelIdeal.Frame
import proofs.«408928_j60928406061363_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Cert.LabelSmooth
open Idealize.ShloMosaic Idealize.ShloMosaic.TcCoe Idealize.ShloMosaic.ValueIdx Idealize.SL.Sem

variable (m : (ℓ : Loc nD τ sig) → Buf (Elt Ideal) ℓ)

/-- Row `512 p + r` of 32768, for `r < 512` and `p < 64`. -/
def rowIn (p : Fin 64) (r : Nat) (hr : r < 512) : Fin 32768 := ⟨512 * p.val + r, by omega⟩

/-- Tile `p` of the logits the region finds: rows `512 p … 512 p + 511`. -/
def xTile (c : Dev nD) (p : Fin 64) : Vec Ideal S512x2048 .f32 := fun y =>
  (V m c main_arg0 : FVec Ideal S32768x2048 .f32) (ix2 (rowIn p (y 0).val (idx2_lt0 y)) (⟨(y 1).val, idx2_lt1 y⟩ : Fin 2048))
/-- Tile `p` of the clipped targets. -/
def tTile (c : Dev nD) (p : Fin 64) : Vec Ideal S512x1 .i32 := fun y =>
  (V m c main_v8 : IVec S32768x1 32) (ix2 (rowIn p (y 0).val (idx2_lt0 y)) (0 : Fin 1))
/-- Tile `p` of the gathered weights. -/
def wTile (c : Dev nD) (p : Fin 64) : Vec Ideal S512x1 .f32 := fun y =>
  (V m c main_v9 : FVec Ideal S32768x1 .f32) (ix2 (rowIn p (y 0).val (idx2_lt0 y)) (0 : Fin 1))
/-- The row of class ids. -/
def ids (c : Dev nD) : Vec Ideal S1x2048 .i32 := (V m c main_v11 : IVec S1x2048 32)

/-! The whole array as one function of the arrays the region finds, block by block. -/

/-- The printed index maps, decided over the grid: the three tiled inputs and the output move with the grid point
    along the rows, the row of class ids stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point as a tile number. -/
def tileOf (t : Fin cfg0.N) : Fin 64 := ⟨t.val, lt_of_lt_of_eq t.isLt N_0⟩

/-- The block of the logits at point `t` is tile `t`: its entry `(r, j)` sits at row `512 t + r`, column `j`. -/
theorem block_logits (c : Dev nD) (t : Fin cfg0.N) : (iblk m c 0 t : Vec Ideal S512x2048 .f32) = xTile m c (tileOf t) := by
  obtain ⟨e0, e1, -⟩ := idx_facts t
  funext (y : S512x2048.Idx)
  show V m c main_arg0 (((cfg0.win 0).blk t).view.emb y) = V m c main_arg0 (ix2 (rowIn (tileOf t) (y 0).val (idx2_lt0 y)) (⟨(y 1).val, idx2_lt1 y⟩ : Fin 2048))
  have h : ((cfg0.win 0).blk t).view.emb y = ix2 (rowIn (tileOf t) (y 0).val (idx2_lt0 y)) (⟨(y 1).val, idx2_lt1 y⟩ : Fin 2048) := by
    funext a; apply Fin.ext
    match a with
    | ⟨0, _⟩ => show win0_0.index t (0 : Fin 2) * 512 + 1 * (y 0).val = 512 * t.val + (y 0).val; omega
    | ⟨1, _⟩ => show win0_0.index t (1 : Fin 2) * 2048 + 1 * (y 1).val = (y 1).val; omega
  rw [h]

/-- The block of the clipped targets at point `t` is tile `t`. -/
theorem block_targets (c : Dev nD) (t : Fin cfg0.N) : (iblk m c 1 t : Vec Ideal S512x1 .i32) = tTile m c (tileOf t) := by
  obtain ⟨-, -, e0, e1, -⟩ := idx_facts t
  funext (y : S512x1.Idx)
  show V m c main_v8 (((cfg0.win 1).blk t).view.emb y) = V m c main_v8 (ix2 (rowIn (tileOf t) (y 0).val (idx2_lt0 y)) (0 : Fin 1))
  have h : ((cfg0.win 1).blk t).view.emb y = ix2 (rowIn (tileOf t) (y 0).val (idx2_lt0 y)) (0 : Fin 1) := by
    funext a; apply Fin.ext
    match a with
    | ⟨0, _⟩ => show win0_1.index t (0 : Fin 2) * 512 + 1 * (y 0).val = 512 * t.val + (y 0).val; omega
    | ⟨1, _⟩ => show win0_1.index t (1 : Fin 2) * 1 + 1 * (y 1).val = 0; have := idx2_lt1 y; omega
  rw [h]

/-- The block of the gathered weights at point `t` is tile `t`. -/
theorem block_weights (c : Dev nD) (t : Fin cfg0.N) : (iblk m c 2 t : Vec Ideal S512x1 .f32) = wTile m c (tileOf t) := by
  obtain ⟨-, -, -, -, e0, e1, -⟩ := idx_facts t
  funext (y : S512x1.Idx)
  show V m c main_v9 (((cfg0.win 2).blk t).view.emb y) = V m c main_v9 (ix2 (rowIn (tileOf t) (y 0).val (idx2_lt0 y)) (0 : Fin 1))
  have h : ((cfg0.win 2).blk t).view.emb y = ix2 (rowIn (tileOf t) (y 0).val (idx2_lt0 y)) (0 : Fin 1) := by
    funext a; apply Fin.ext
    match a with
    | ⟨0, _⟩ => show win0_2.index t (0 : Fin 2) * 512 + 1 * (y 0).val = 512 * t.val + (y 0).val; omega
    | ⟨1, _⟩ => show win0_2.index t (1 : Fin 2) * 1 + 1 * (y 1).val = 0; have := idx2_lt1 y; omega
  rw [h]

/-- The block of the class ids, at every point, is the whole row. -/
theorem block_ids (c : Dev nD) (t : Fin cfg0.N) : (iblk m c 3 t : Vec Ideal S1x2048 .i32) = ids m c := by
  obtain ⟨-, -, -, -, -, -, e0, e1, -⟩ := idx_facts t
  funext (y : S1x2048.Idx)
  show V m c main_v11 (((cfg0.win 3).blk t).view.emb y) = V m c main_v11 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 2048 + 1 * (y 1).val = (y 1).val; omega
  rw [h]

/-- What grid point `p` leaves at entry `(a, b)` of its output block: the body's result on tile `p` of the inputs. -/
def tileOut (c : Dev nD) (p : Fin 64) (a : Fin 8) (b : Fin 128) : Ideal .f32 :=
  out0_4 (F := Ideal) (xTile m c p) (tTile m c p) (wTile m c p) (ids m c) (ix2 a b)

/-- The block that holds row `r` of the output: `r / 8`. -/
def outTile (i : S512x128.Idx) : Fin 64 := ⟨(i 0).val / 8, by have := idx2_lt0 i; omega⟩
/-- The row inside that block: `r % 8`. -/
def outRow (i : S512x128.Idx) : Fin 8 := ⟨(i 0).val % 8, Nat.mod_lt _ (by decide)⟩
/-- The column. -/
def outCol (i : S512x128.Idx) : Fin 128 := ⟨(i 1).val, idx2_lt1 i⟩

/-- The whole output array as one function of the arrays the region finds: row `r`, column `b` is entry
    `(r % 8, b)` of what point `r / 8` leaves. -/
def outFn (c : Dev nD) : FVec Ideal S512x128 .f32 := fun i => tileOut m c (outTile i) (outRow i) (outCol i)

/-- `outFn` at row `8 p + a`, column `b`: `(8 p + a) / 8 = p` and `(8 p + a) % 8 = a`. -/
theorem outFn_apply (c : Dev nD) (p : Fin 64) (a : Fin 8) (b : Fin 128) (i : S512x128.Idx)
    (h0 : (i 0).val = 8 * p.val + a.val) (h1 : (i 1).val = b.val) : outFn m c i = tileOut m c p a b := by
  have ep : outTile i = p := Fin.ext (by show (i 0).val / 8 = p.val; have := a.isLt; omega)
  have ea : outRow i = a := Fin.ext (by show (i 0).val % 8 = a.val; have := a.isLt; omega)
  have eb : outCol i = b := Fin.ext h1
  show tileOut m c (outTile i) (outRow i) (outCol i) = _
  rw [ep, ea, eb]

/-- What point `t` writes back is block `t` of `outFn`: the output's blocks are whole (512 = 64 · 8), the body's
    result is on tile `t` of each input, and entry `(a, b)` of block `t` sits at row `8 t + a`, column `b`. -/
theorem flushed_eq (c : Dev nD) (t : Fin cfg0.N) :
    (dats m 0 c).flushed 4 t = ((cfg0.win 4).blk t).view.read (Elt Ideal) (outFn m c) := by
  obtain ⟨-, -, -, -, -, -, -, -, e0, e1⟩ := idx_facts t
  show (cfg0.win 4).cut (grid0.coords t) ((dats m 0 c).after 4 t) = _
  rw [after0_4, block_logits, block_targets, block_weights, block_ids]
  funext (y : S8x128.Idx)
  show out0_4 (F := Ideal) (xTile m c (tileOf t)) (tTile m c (tileOf t)) (wTile m c (tileOf t)) (ids m c) y
    = outFn m c (((cfg0.win 4).blk t).view.emb y)
  rw [outFn_apply m c (tileOf t) (y 0) (y 1) (((cfg0.win 4).blk t).view.emb y)
    (by show win0_4.index t (0 : Fin 2) * 8 + 1 * (y 0).val = 8 * t.val + (y 0).val; omega)
    (by show win0_4.index t (1 : Fin 2) * 128 + 1 * (y 1).val = (y 1).val; omega)]
  exact congrArg (out0_4 (F := Ideal) (xTile m c (tileOf t)) (tTile m c (tileOf t)) (wTile m c (tileOf t)) (ids m c)) (eq_ix2 y)

/-- An index of the output array is in point `t`'s block iff each coordinate is in the block's range on its axis. -/
theorem mem_block (t : Fin cfg0.N) (i : S512x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v12).slice (win0_4.rect t)).set ↔ _
  rw [View.set_slice_whole, Rect.mem_set_unit]
  exact Iff.rfl

/-- Every index of the output array is in the block of the point `r / 8`, `r` its row, and that point writes back. -/
theorem covered (i : S512x128.Idx) : ∃ t : Fin cfg0.N, (cfg0.win 4).flush t = true ∧ i ∈ ((cfg0.win 4).blk t).view.set := by
  have hi0 : (i 0).val < 512 := idx2_lt0 i
  have hi1 : (i 1).val < 128 := idx2_lt1 i
  let t : Fin cfg0.N := ⟨(i 0).val / 8, lt_of_lt_of_eq (by omega : (i 0).val / 8 < 64) N_0.symm⟩
  obtain ⟨-, -, -, -, -, -, -, -, e0, e1⟩ := idx_facts t
  have ht : t.val = (i 0).val / 8 := rfl
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- The output array after the run is `outFn`: each point writes back its block of it, and the blocks cover the array. -/
theorem arr_eq (c : Dev nD) : (dats m 0 c).arrAt 4 cfg0.N = outFn m c :=
  (dats m 0 c).arrAt_eq_of_cover 4 (outFn m c) (fun t _ => flushed_eq m c t) covered

/-- The output array after the run, at row `8 p + a` and column `b`: entry `(a, b)` of what grid point `p` left. -/
theorem arr_apply (c : Dev nD) (p : Fin 64) (a : Fin 8) (b : Fin 128) :
    ((dats m 0 c).arrAt 4 cfg0.N : FVec Ideal S512x128 .f32) (ix2 (⟨8 * p.val + a.val, by omega⟩ : Fin 512) b)
      = out0_4 (F := Ideal) (xTile m c p) (tTile m c p) (wTile m c p) (ids m c) (ix2 a b) := by
  rw [arr_eq]
  exact outFn_apply m c p a b _ rfl rfl

end Cert.KernelIdeal.Blocks

end
-- ==== Proof.Tail.lean ====
/- The host lines after the kernel's region: column 0 and column 1 of the 512 × 128 output array, each summed from
   zero, and the quotient of the two sums. -/
import proofs.«408928_j60928406061363_3_alg».proof.Proof.Gen.KernelIdeal.Frame
import proofs.«408928_j60928406061363_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Tail

open Cert.KernelIdeal Cert.KernelIdeal.Gen Cert.LabelSmooth
open Idealize.ShloMosaic Idealize.ShloMosaic.TcCoe Idealize.ShloMosaic.ValueIdx Idealize.SL.Sem
open scoped BigOperators

variable (m : (ℓ : Loc nD τ sig) → Buf (Elt Ideal) ℓ)

/-- The output array after the run. -/
abbrev outArr (c : Dev nD) : FVec Ideal S512x128 .f32 := (dats m 0 c).arrAt 4 cfg0.N

/-- The indices of a vector of 512 are the numbers below 512. -/
def idxEquiv1 : Fin 512 ≃ S512.Idx where
  toFun := ix1
  invFun j := j 0
  left_inv _ := rfl
  right_inv j := (eq_ix1 j).symm

/-- Column `k` of a 512 × 128 array, cut out as a 512 × 1 array, read as a vector of 512 and summed from zero: zero plus the
    sum of the column's entries. -/
theorem colSum (A : FVec Ideal S512x128 .f32) (o : Nat) (h : S512x128.Slices ![0, o] S512x1) (k : Fin 128) (hk : k.val = o)
    (j : S_.Idx) :
    Host.reduceAdd (F := Ideal) (shapeCast S512 (extractStridedSlice S512x1 ![0, o] A h) shapeCasts_S512x1_S512)
        (constant (F := Ideal) S_ .f32 0x00000000#32) reducesTo_S512_S_d0 h_S_ j
      = zero32 + ∑ r : Fin 512, A (ix2 r k) := by
  simp only [Host.reduceAdd, Ideal.hostReduceAdd_def]
  rw [Ideal.hostReduceAdd_total reducesTo_S512_S_d0 (fun b => b.elim0)]
  refine congrArg (_ + ·) ?_
  refine (Fintype.sum_equiv idxEquiv1 _ _ fun r => ?_).symm
  refine Eq.symm ((shapeCast_apply _ _ (ix1 r) (ix2 r (0 : Fin 1)) ?_).trans ?_)
  · rw [Shape.rowMajor_val_two, Shape.rowMajor_val_one]
    show r.val * 1 + 0 = r.val
    omega
  · exact slice2_axis1_apply o A h r 0 k (by simp [hk])

/-- The host's quotient of two rank-0 arrays, read at the one index. -/
theorem divf_apply {s : Shape} (x y : FVec Ideal s .f32) (i : s.Idx) : Host.divf x y i = Ideal.div (x i) (y i) := rfl

/-- The quotient of the two column sums of an array `A`, as one formula. -/
theorem quot (A : FVec Ideal S512x128 .f32) :
    Host.divf (F := Ideal)
        (Host.reduceAdd (F := Ideal) (shapeCast S512 (extractStridedSlice S512x1 ![0, 0] A slices_S512x128_S512x1_0_0) shapeCasts_S512x1_S512)
          (constant (F := Ideal) S_ .f32 0x00000000#32) reducesTo_S512_S_d0 h_S_)
        (Host.reduceAdd (F := Ideal) (shapeCast S512 (extractStridedSlice S512x1 ![0, 1] A slices_S512x128_S512x1_0_1) shapeCasts_S512x1_S512)
          (constant (F := Ideal) S_ .f32 0x00000000#32) reducesTo_S512_S_d0 h_S_)
      = fun _ => Ideal.div (zero32 + ∑ r : Fin 512, A (ix2 r (0 : Fin 128))) (zero32 + ∑ r : Fin 512, A (ix2 r (1 : Fin 128))) := by
  funext j
  refine (divf_apply _ _ j).trans ?_
  exact congrArg₂ Ideal.div (colSum A 0 slices_S512x128_S512x1_0_0 0 rfl j) (colSum A 1 slices_S512x128_S512x1_0_1 1 rfl j)

/-- The lines after the region, over any contents `W` of the references: the quotient of the two column sums of what the
    output array's reference holds. -/
theorem tail_after (W : Valuation τ sig (Elt Ideal)) :
    (StableHlo.after hostOps1 W (Proc.devRef .tc main_v19) : FVec Ideal S_ .f32)
      = Host.divf (F := Ideal)
          (Host.reduceAdd (F := Ideal) (shapeCast S512 (extractStridedSlice S512x1 ![0, 0] (W (Proc.devRef .tc main_v12) : FVec Ideal S512x128 .f32) slices_S512x128_S512x1_0_0) shapeCasts_S512x1_S512)
            (constant (F := Ideal) S_ .f32 0x00000000#32) reducesTo_S512_S_d0 h_S_)
          (Host.reduceAdd (F := Ideal) (shapeCast S512 (extractStridedSlice S512x1 ![0, 1] (W (Proc.devRef .tc main_v12) : FVec Ideal S512x128 .f32) slices_S512x128_S512x1_0_1) shapeCasts_S512x1_S512)
            (constant (F := Ideal) S_ .f32 0x00000000#32) reducesTo_S512_S_d0 h_S_) := by
  after_results
  rfl

/-- @main's result after the lines that follow the region: `(0 + ∑ᵣ A(r, 0)) / (0 + ∑ᵣ A(r, 1))` of the output array `A`. -/
theorem tail_value (c : Dev nD) :
    (Pipeline.afterTail₀ cfgs (dats m) 0 (V0 m) [hostOps1] c main_v19 : FVec Ideal S_ .f32)
      = fun _ => Ideal.div (zero32 + ∑ r : Fin 512, outArr m c (ix2 r (0 : Fin 128)))
                           (zero32 + ∑ r : Fin 512, outArr m c (ix2 r (1 : Fin 128))) := by
  unfold Pipeline.afterTail₀
  simp only [List.flatten_cons, List.flatten_nil, List.append_nil]
  show StableHlo.after hostOps1 _ (Proc.devRef .tc main_v19) = _
  refine (tail_after _).trans ?_
  have hA : Pipeline.withArrays (cfgs 0).spec c (V0 m c) (fun w => (dats m 0 c).arrAt w (cfgs 0).N)
      (Proc.devRef .tc main_v12) = outArr m c :=
    Pipeline.withArrays_arr spec0 launch0.win.arr_inj c _ _ 4
  rw [hA]
  exact quot (outArr m c)

end Cert.KernelIdeal.Tail

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.Algebra.lean ====
/- The algebra that joins the two spellings of the label-smoothing loss: every quantity of a row of real
   numbers is a real number, the two spellings of a row's loss agree there, a sum masked by equality with one
   class number is that class's entry, and a sum over rows regroups by tiles of rows. -/
import proofs.«408928_j60928406061363_3_alg».proof.Proof.Spec
import proofs.«408928_j60928406061363_3_alg».proof.Proof.LibERealBatchNorm
import Idealize.ShloMosaic.PureOps
import Mathlib.Algebra.BigOperators.Fin
import Mathlib.Logic.Equiv.Fin.Basic
import Mathlib.Data.Finset.Fold

noncomputable section

namespace Cert.LabelSmooth

open Idealize.ShloMosaic Idealize.ShloMosaic.ValueIdx Cert.ERealBN
open scoped BigOperators

/-- `−∞` is the bottom of the extended reals. -/
theorem negInf_eq : negInf = ⊥ := by
  simp [negInf, Ideal.ofBits, Ideal.ieee]

/-- The host's zero is `0`. -/
theorem zero32_eq : zero32 = 0 := ofBits_zero

/-- The reciprocal of the number of classes is the real `1 / 2048`. -/
private theorem invClasses_eq : invClasses = (((1 : ℝ) / 2048 : ℝ) : EReal) := by
  simp [invClasses, Ideal.ofBits, Ideal.ieee, -EReal.coe_mul]; norm_num

/-- The number of classes is the real `2048`. -/
private theorem classes_eq : classes = ((2048 : ℝ) : EReal) := by
  simp [classes, Ideal.ofBits, Ideal.ieee, -EReal.coe_mul]; norm_num

/-- A fold of `max` from `−∞` over a nonempty family of real numbers is a real number. -/
private theorem fold_max_isReal {ι : Type*} [DecidableEq ι] (g : ι → EReal) (hg : ∀ i, IsReal (g i)) (s : Finset ι)
    (hs : s.Nonempty) : IsReal (s.fold max ⊥ g) := by
  induction s using Finset.induction_on with
  | empty => exact absurd hs Finset.not_nonempty_empty
  | insert i s hi ih =>
    rw [Finset.fold_insert hi]
    rcases s.eq_empty_or_nonempty with rfl | hne
    · rw [Finset.fold_empty, max_eq_left bot_le]; exact hg i
    · exact IsReal.max (hg i) (ih hne)

/-- The maximum of a row of real numbers is a real number. -/
theorem rowMax_isReal (a : Fin 2048 → EReal) (ha : ∀ j, IsReal (a j)) : IsReal (rowMax a) := by
  unfold rowMax
  rw [negInf_eq]
  exact fold_max_isReal a ha _ Finset.univ_nonempty

/-- On a row of real numbers with a real weight, the loss spelt through the row's own sums, at the row's own
    entry of the target class, is the loss spelt through the log-probabilities:
    `(L + M) − aₜ = −((aₜ − M) − L)` and `(L + M) − (∑ⱼ aⱼ)·2⁻¹¹ = −((∑ⱼ ((aⱼ − M) − L)) / 2048)`. -/
theorem lossK_eq_lossR (a : Fin 2048 → EReal) (ha : ∀ j, IsReal (a j)) (t : Fin 2048) (wt : EReal) (hw : IsReal wt) :
    lossK a (a t) wt = lossR a t wt := by
  obtain ⟨m, hm⟩ := rowMax_isReal a ha
  choose f hf using ha
  -- the sum of the exponentials is a positive real, so its logarithm is a real
  have hexp : ∀ j, Ideal.exp (a j - rowMax a) = ((Real.exp (f j - m) : ℝ) : EReal) := fun j => by
    rw [hf j, hm, ← EReal.coe_sub, Ideal.exp_coe]
  have hS : ∑ j, Ideal.exp (a j - rowMax a) = ((∑ j, Real.exp (f j - m) : ℝ) : EReal) := by
    rw [← coe_sum]; exact Finset.sum_congr rfl (fun j _ => hexp j)
  have hpos : 0 < ∑ j : Fin 2048, Real.exp (f j - m) :=
    Finset.sum_pos (fun j _ => Real.exp_pos _) Finset.univ_nonempty
  have hK : lseK a = ((Real.log (∑ j, Real.exp (f j - m)) : ℝ) : EReal) := by
    unfold lseK; rw [hS, Ideal.log_coe, if_neg (not_le.mpr hpos)]
  have hR : lseR a = ((Real.log (∑ j, Real.exp (f j - m)) : ℝ) : EReal) := by
    unfold lseR; rw [zero32_eq, zero_add, hS, Ideal.log_coe, if_neg (not_le.mpr hpos)]
  set L : ℝ := Real.log (∑ j, Real.exp (f j - m)) with hL
  have hlogp : ∀ j, logp a j = ((f j - m - L : ℝ) : EReal) := fun j => by
    unfold logp; rw [hf j, hm, hR, ← EReal.coe_sub, ← EReal.coe_sub]
  -- the target-class term
  have h1 : (lseK a + rowMax a) - a t = -(logp a t) := by
    rw [hlogp t, hK, hm, hf t, ← EReal.coe_add, ← EReal.coe_sub, ← EReal.coe_neg]
    congr 1; ring
  -- the mean term
  have h2 : (lseK a + rowMax a) - (∑ j, a j) * invClasses
      = -(Ideal.div (zero32 + ∑ j, logp a j) classes) := by
    have e1 : ∑ j, a j = ((∑ j, f j : ℝ) : EReal) := by
      rw [← coe_sum]; exact Finset.sum_congr rfl (fun j _ => hf j)
    have e2 : ∑ j, logp a j = ((∑ j, (f j - m - L) : ℝ) : EReal) := by
      rw [← coe_sum]; exact Finset.sum_congr rfl (fun j _ => hlogp j)
    rw [e1, e2, hK, hm, invClasses_eq, classes_eq, zero32_eq, zero_add,
      Ideal.div_coe (by norm_num : (2048 : ℝ) ≠ 0), ← EReal.coe_mul, ← EReal.coe_mul, ← EReal.coe_add,
      ← EReal.coe_sub, ← EReal.coe_neg]
    congr 1
    rw [Finset.sum_sub_distrib, Finset.sum_sub_distrib, Finset.sum_const, Finset.sum_const, Finset.card_univ,
      Fintype.card_fin, nsmul_eq_mul, nsmul_eq_mul]
    push_cast
    ring
  unfold lossK lossR
  rw [h1, h2]

/-- A class number's word is below `2048` as a natural number. -/
private theorem toNat_lt_of_inRange (b : BitVec 32) (hb : InRange b) : b.toNat < 2048 := by
  obtain ⟨h0, h1⟩ := hb
  have hlt := b.isLt
  rw [BitVec.toInt_eq_toNat_cond] at h0 h1
  split_ifs at h0 h1 <;> omega

/-- Among the column numbers below `2048`, the one whose word is the class number `b` is the class `b` names. -/
private theorem ofNat_eq_iff_cls (b : BitVec 32) (hb : InRange b) (j : Fin 2048) :
    BitVec.ofNat 32 j.val = b ↔ j = cls b := by
  have hlt := toNat_lt_of_inRange b hb
  have hj := j.isLt
  constructor
  · intro h
    have h' : b.toNat = j.val := by
      rw [← h, BitVec.toNat_ofNat]; omega
    apply Fin.ext
    simp only [cls]
    omega
  · intro h
    have h' : j.val = b.toNat := by
      rw [h]; simp only [cls]; omega
    rw [h', BitVec.ofNat_toNat, BitVec.setWidth_eq]

/-- A Boolean as a one-bit word is one exactly when it is true. -/
private theorem ofBool_eq_one (c : Bool) : (BitVec.ofBool c = 1) ↔ c = true := by cases c <;> decide

/-- A row summed under the mask "this column's number is the word `b`", zero elsewhere, is the row's entry at
    the class `b` names, when `b` is a class number. -/
theorem sum_select_class (a : Fin 2048 → EReal) (b : BitVec 32) (hb : InRange b) :
    ∑ j : Fin 2048, Scalar.select (IntOp.cmpi .eq (BitVec.ofNat 32 j.val) b) (a j) zero32 = a (cls b) := by
  have hterm : ∀ j : Fin 2048,
      Scalar.select (IntOp.cmpi .eq (BitVec.ofNat 32 j.val) b) (a j) zero32 = if j = cls b then a j else 0 := by
    intro j
    unfold Scalar.select IntOp.cmpi
    rw [zero32_eq]
    by_cases h : j = cls b
    · have hw := (ofNat_eq_iff_cls b hb j).mpr h
      rw [if_pos h, if_pos]
      rw [ofBool_eq_one]; exact beq_iff_eq.mpr hw
    · have hw : ¬ BitVec.ofNat 32 j.val = b := fun e => h ((ofNat_eq_iff_cls b hb j).mp e)
      rw [if_neg h, if_neg]
      rw [ofBool_eq_one]; exact fun e => hw (beq_iff_eq.mp e)
  rw [Finset.sum_congr rfl (fun j _ => hterm j), Finset.sum_ite_eq' Finset.univ (cls b) a, if_pos (Finset.mem_univ _)]

/-- A column of 512 entries that holds `f p` at row `8p` and zero at the other rows sums to `∑ₚ f p`. -/
theorem sum_first_of_eight (f : Fin 64 → EReal) :
    ∑ r : Fin 512, (if r.val % 8 = 0 then f ⟨r.val / 8, by omega⟩ else (0 : EReal)) = ∑ p : Fin 64, f p := by
  rw [← Equiv.sum_comp (finProdFinEquiv : Fin 64 × Fin 8 ≃ Fin 512), Fintype.sum_prod_type]
  refine Finset.sum_congr rfl (fun p _ => ?_)
  rw [Finset.sum_eq_single (0 : Fin 8)]
  · have h0 : ((finProdFinEquiv : Fin 64 × Fin 8 ≃ Fin 512) (p, 0)).val = 8 * p.val := by
      simp [finProdFinEquiv]
    rw [if_pos (by rw [h0]; omega)]
    congr 1
    apply Fin.ext
    simp only [h0]
    omega
  · intro q _ hq
    have hv : ((finProdFinEquiv : Fin 64 × Fin 8 ≃ Fin 512) (p, q)).val = q.val + 8 * p.val := by
      simp [finProdFinEquiv]
    have hq' : q.val ≠ 0 := fun h => hq (Fin.ext h)
    have := q.isLt
    rw [if_neg (by rw [hv]; omega)]
  · intro h; exact absurd (Finset.mem_univ _) h

/-- 32768 rows summed tile by tile, 64 tiles of 512 rows. -/
theorem sum_tiles (g : Fin 32768 → EReal) :
    ∑ p : Fin 64, ∑ q : Fin 512, g ⟨512 * p.val + q.val, by omega⟩ = ∑ i : Fin 32768, g i := by
  rw [← Equiv.sum_comp (finProdFinEquiv : Fin 64 × Fin 512 ≃ Fin 32768) g, Fintype.sum_prod_type]
  refine Finset.sum_congr rfl (fun p _ => Finset.sum_congr rfl (fun q _ => ?_))
  congr 1
  apply Fin.ext
  simp [finProdFinEquiv]
  omega

end Cert.LabelSmooth

end
-- ==== Proof.KernelValue.lean ====
/- The kernel's result as one formula of the argument arrays: the two columns the host sums after the region hold, at
   row 8p, tile p's summed row losses and summed row weights and zero elsewhere; a tile's row loss is the loss spelt
   through the row's own sums, its selected entry the row's entry at the target class; and 64 tiles of 512 rows are the
   32768 rows. -/
import proofs.«408928_j60928406061363_3_alg».proof.Proof.Payload
import proofs.«408928_j60928406061363_3_alg».proof.Proof.Prefix
import proofs.«408928_j60928406061363_3_alg».proof.Proof.Blocks
import proofs.«408928_j60928406061363_3_alg».proof.Proof.Tail
import proofs.«408928_j60928406061363_3_alg».proof.Proof.Algebra

noncomputable section

namespace Cert.KernelIdeal.KValue

open Cert.KernelIdeal Cert.KernelIdeal.Gen Cert.LabelSmooth
open Cert.KernelIdeal.Payload Cert.KernelIdeal.Prefix Cert.KernelIdeal.Blocks Cert.KernelIdeal.Tail
open Idealize.ShloMosaic Idealize.ShloMosaic.TcCoe Idealize.ShloMosaic.ValueIdx Idealize.SL.Sem
open scoped BigOperators

variable (m : (ℓ : Loc nD τ sig) → Buf (Elt Ideal) ℓ)

/-- Column 0 of a block whose entry (0, 0) is `N`, entry (0, 1) is `D` and every other entry zero: `N` at row 0, else 0. -/
theorem col0_of_block (N D : EReal) (a : Fin 8) :
    (if a.val = 0 ∧ (0 : Fin 128).val = 0 then N else if a.val = 0 ∧ (0 : Fin 128).val = 1 then D else zero32)
      = if a.val = 0 then N else 0 := by
  by_cases h : a.val = 0 <;> simp [h, zero32_eq]

/-- Column 1 of such a block: `D` at row 0, else 0. -/
theorem col1_of_block (N D : EReal) (a : Fin 8) :
    (if a.val = 0 ∧ (1 : Fin 128).val = 0 then N else if a.val = 0 ∧ (1 : Fin 128).val = 1 then D else zero32)
      = if a.val = 0 then D else 0 := by
  by_cases h : a.val = 0 <;> simp [h, zero32_eq]

/-- One row of a tile, read off the arrays the region finds, is the row of the launched logits. -/
theorem tileRow_eq (c : Dev nD) (p : Fin 64) (q : Fin 512) :
    tileRow (xTile m c p) q = rowOf (logits m c) (rowIn p q.val q.isLt) := by
  funext j
  show (V m c main_arg0 : FVec Ideal S32768x2048 .f32) _ = _
  rw [V_logits m c]
  rfl

/-- A tile's summed row losses, on class-number targets: the loss spelt through the row's own sums, of rows 512 p … -/
theorem tileNum_eq (c : Dev nD) (ht : ∀ i : Fin 32768, InRange (tgt m c (ix1 i))) (p : Fin 64) :
    tileNum (xTile m c p) (tTile m c p) (wTile m c p) (ids m c)
      = ∑ q : Fin 512, kerLoss (logits m c) (tgt m c) (clw m c) ⟨512 * p.val + q.val, by omega⟩ := by
  unfold tileNum
  refine Finset.sum_congr rfl fun q _ => ?_
  have htg : tTile m c p (ix2 q (0 : Fin 1)) = tgt m c (ix1 (rowIn p q.val q.isLt)) :=
    V_targets m c (rowIn p q.val q.isLt) (ht _)
  have hwt : wTile m c p (ix2 q (0 : Fin 1)) = wts (tgt m c) (clw m c) (rowIn p q.val q.isLt) :=
    V_weights m c (rowIn p q.val q.isLt) (ht _)
  -- the selected entry is the row's entry at its target class
  have hsel : tileSel (xTile m c p) (tTile m c p) (ids m c) q
      = rowOf (logits m c) (rowIn p q.val q.isLt) (cls (tgt m c (ix1 (rowIn p q.val q.isLt)))) := by
    unfold tileSel
    rw [htg]
    refine Eq.trans ?_ (sum_select_class (rowOf (logits m c) (rowIn p q.val q.isLt)) (tgt m c (ix1 (rowIn p q.val q.isLt))) (ht _))
    refine Finset.sum_congr rfl fun j _ => ?_
    have hid : ids m c (ix2 (0 : Fin 1) j) = BitVec.ofNat 32 j.val := V_classIds m c j
    rw [hid, ← tileRow_eq m c p q]
    rfl
  rw [tileRow_eq m c p q, hsel, hwt]
  rfl

/-- A tile's summed row weights, on class-number targets. -/
theorem tileDen_eq (c : Dev nD) (ht : ∀ i : Fin 32768, InRange (tgt m c (ix1 i))) (p : Fin 64) :
    tileDen (wTile m c p) = ∑ q : Fin 512, wts (tgt m c) (clw m c) ⟨512 * p.val + q.val, by omega⟩ := by
  unfold tileDen
  refine Finset.sum_congr rfl fun q _ => ?_
  exact (V_weights m c (rowIn p q.val q.isLt) (ht _)).trans rfl

/-- Row `r` of the output array is row `r mod 8` of block `r div 8`. -/
theorem outArr_row (c : Dev nD) (r : Fin 512) (b : Fin 128) :
    outArr m c (ix2 r b)
      = out0_4 (F := Ideal) (xTile m c ⟨r.val / 8, by omega⟩) (tTile m c ⟨r.val / 8, by omega⟩) (wTile m c ⟨r.val / 8, by omega⟩)
          (ids m c) (ix2 (⟨r.val % 8, by omega⟩ : Fin 8) b) := by
  have hr : (⟨8 * (⟨r.val / 8, by omega⟩ : Fin 64).val + (⟨r.val % 8, by omega⟩ : Fin 8).val, by omega⟩ : Fin 512) = r :=
    Fin.ext (Nat.div_add_mod r.val 8)
  exact (congrArg (fun k : Fin 512 => outArr m c (ix2 k b)) hr.symm).trans
    (arr_apply m c ⟨r.val / 8, by omega⟩ ⟨r.val % 8, by omega⟩ b)

/-- @main's result after the run, of arguments whose target words are class numbers, is the whole loss of the rows'
    losses spelt through the rows' own sums. -/
theorem kernel_value (c : Dev nD) (ht : ∀ i : Fin 32768, InRange (tgt m c (ix1 i))) :
    (Pipeline.afterTail₀ cfgs (dats m) 0 (V0 m) [hostOps1] c main_v19 : FVec Ideal S_ .f32)
      = fun _ => total (kerLoss (logits m c) (tgt m c) (clw m c)) (wts (tgt m c) (clw m c)) := by
  have hcol0 : ∑ r : Fin 512, outArr m c (ix2 r (0 : Fin 128))
      = ∑ i : Fin 32768, kerLoss (logits m c) (tgt m c) (clw m c) i :=
    calc ∑ r : Fin 512, outArr m c (ix2 r (0 : Fin 128))
        = ∑ r : Fin 512, (if r.val % 8 = 0
            then (fun p : Fin 64 => tileNum (xTile m c p) (tTile m c p) (wTile m c p) (ids m c)) ⟨r.val / 8, by omega⟩
            else (0 : EReal)) := by
          refine Finset.sum_congr rfl fun r _ => ?_
          rw [outArr_row m c r 0, out_apply, col0_of_block]
      _ = ∑ p : Fin 64, tileNum (xTile m c p) (tTile m c p) (wTile m c p) (ids m c) :=
          sum_first_of_eight fun p : Fin 64 => tileNum (xTile m c p) (tTile m c p) (wTile m c p) (ids m c)
      _ = ∑ p : Fin 64, ∑ q : Fin 512, kerLoss (logits m c) (tgt m c) (clw m c) ⟨512 * p.val + q.val, by omega⟩ :=
          Finset.sum_congr rfl fun p _ => tileNum_eq m c ht p
      _ = ∑ i : Fin 32768, kerLoss (logits m c) (tgt m c) (clw m c) i :=
          sum_tiles (kerLoss (logits m c) (tgt m c) (clw m c))
  have hcol1 : ∑ r : Fin 512, outArr m c (ix2 r (1 : Fin 128))
      = ∑ i : Fin 32768, wts (tgt m c) (clw m c) i :=
    calc ∑ r : Fin 512, outArr m c (ix2 r (1 : Fin 128))
        = ∑ r : Fin 512, (if r.val % 8 = 0
            then (fun p : Fin 64 => tileDen (wTile m c p)) ⟨r.val / 8, by omega⟩
            else (0 : EReal)) := by
          refine Finset.sum_congr rfl fun r _ => ?_
          rw [outArr_row m c r 1, out_apply, col1_of_block]
      _ = ∑ p : Fin 64, tileDen (wTile m c p) := sum_first_of_eight fun p : Fin 64 => tileDen (wTile m c p)
      _ = ∑ p : Fin 64, ∑ q : Fin 512, wts (tgt m c) (clw m c) ⟨512 * p.val + q.val, by omega⟩ :=
          Finset.sum_congr rfl fun p _ => tileDen_eq m c ht p
      _ = ∑ i : Fin 32768, wts (tgt m c) (clw m c) i := sum_tiles (wts (tgt m c) (clw m c))
  rw [tail_value m c]
  funext _
  unfold total
  rw [hcol0, hcol1]

/-- The kernel's run with its result named: every weakly fair execution ends with @main's result at what the lines after
    the region compute from the region's final arrays, and the arguments as launched. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v19) = Pipeline.afterTail₀ cfgs (dats m) 0 (V0 m) [hostOps1] c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).2 main_v19 (Pipeline.mem_restRefs_of main_v19 (by decide) (by decide)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.Precond.lean ====
/- What the precondition says, entry by entry: every logit and every class weight is a real number (its absolute
   value is below +∞), and every target word, read as a signed integer, is a class number in [0, 2048). -/
import proofs.«408928_j60928406061363_3_alg».proof.Pre_finite_inputs
import proofs.«408928_j60928406061363_3_alg».proof.Proof.Spec
import proofs.«408928_j60928406061363_3_alg».proof.Proof.LibERealBatchNorm
import Idealize.ShloMosaic.PureOps.Ideal
import Idealize.ShloMosaic.Lib.ReduceAll
import Idealize.ShloMosaic.Lib.StableHlo.Predicate

noncomputable section

namespace Cert.LabelSmooth

open Idealize.ShloMosaic Idealize.ShloMosaic.ValueIdx Cert.ERealBN

/-- An extended real whose absolute value is below +∞ is a real number. -/
private theorem isReal_of_abs_lt_top (a : EReal) (h : Ideal.cmp .olt (max a (-a)) (⊤ : EReal) = 1#1) : IsReal a := by
  simp only [Ideal.cmp, StableHlo.Predicate.ofBool_eq_one_iff, decide_eq_true_eq] at h
  induction a using EReal.rec with
  | bot => simp at h
  | coe r => exact ⟨r, rfl⟩
  | top => simp at h

/-- The f32 pattern 0x7F800000 denotes +∞. -/
private theorem ofBits_inf : Ideal.ofBits .f32 0x7F800000#32 = (⊤ : EReal) := by
  simp [Ideal.ofBits, Ideal.ieee]

/-- The printed precondition, all ones, gives: the logits are real, the weights are real, the targets are class
    numbers. -/
theorem of_pre [Cert.Pre_finite_inputs.Facts]
    (x : FVec Ideal Cert.Pre_finite_inputs.S32768x2048 .f32) (t : IVec Cert.Pre_finite_inputs.S32768 32)
    (w : FVec Ideal Cert.Pre_finite_inputs.S2048 .f32)
    (h : Cert.Pre_finite_inputs.fn (F := Ideal) x t w = fun _ => 1#1) :
    (∀ i, IsReal (x i)) ∧ (∀ j, IsReal (w j)) ∧ (∀ i, InRange (t i)) := by
  -- the one bit of the result, as the conjunction of its three reductions
  have h0 := congrFun h ValueIdx.ix0
  dsimp only [Cert.Pre_finite_inputs.fn] at h0
  haveI : Subsingleton Cert.Pre_finite_inputs.S_.Idx := ⟨fun a b => funext fun d => d.elim0⟩
  obtain ⟨h12, h3⟩ := IntOp.andi_eq_one.1 h0
  obtain ⟨h1, h2⟩ := IntOp.andi_eq_one.1 h12
  refine ⟨fun i => ?_, fun j => ?_, fun i => ?_⟩
  · -- |x i| < +∞
    have e : Ideal.cmp .olt (max (x i) (-(x i))) (Ideal.ofBits .f32 0x7F800000#32) = 1#1 :=
      Host.reduce_andi_all _ _ _ _ _ h1 i
    rw [ofBits_inf] at e
    exact isReal_of_abs_lt_top _ e
  · -- |w j| < +∞
    have e : Ideal.cmp .olt (max (w j) (-(w j))) (Ideal.ofBits .f32 0x7F800000#32) = 1#1 :=
      Host.reduce_andi_all _ _ _ _ _ h2 j
    rw [ofBits_inf] at e
    exact isReal_of_abs_lt_top _ e
  · -- 0 ≤ t i < 2048, signed
    obtain ⟨ea, eb⟩ := IntOp.andi_eq_one.1 (Host.reduce_andi_all _ _ _ _ _ h3 i)
    have ea' : IntOp.cmpi .sge (t i) 0#32 = 1#1 := ea
    have eb' : IntOp.cmpi .slt (t i) 2048#32 = 1#1 := eb
    have z : (0#32 : BitVec 32).toInt = 0 := by decide
    have k : (2048#32 : BitVec 32).toInt = 2048 := by decide
    refine ⟨?_, ?_⟩
    · have := IntOp.cmpi_sge.1 ea'; rwa [z] at this
    · have := IntOp.cmpi_slt.1 eb'; rwa [k] at this

end Cert.LabelSmooth

end
-- ==== Proof.Claims.lean ====
/- The five claims. The frames are the generated ones (the reference's its generated run with the result dropped); the
   idealization rewrote nothing; and the two idealized programs end at one value: the kernel at the whole loss of the rows'
   losses spelt through the rows' own sums, the reference at the whole loss of the rows' losses spelt through the
   log-probabilities, which agree row by row because the precondition makes every logit and every weight a real number
   and every target word a class number. -/
import proofs.«408928_j60928406061363_3_alg».proof.Defs
import proofs.«408928_j60928406061363_3_alg».proof.Proof.Gen.Kernel.Frame
import proofs.«408928_j60928406061363_3_alg».proof.Proof.Gen.KernelIdeal.Frame
import proofs.«408928_j60928406061363_3_alg».proof.Proof.Gen.ReferenceIdeal
import proofs.«408928_j60928406061363_3_alg».proof.Proof.Gen.Pre_finite_inputs
import proofs.«408928_j60928406061363_3_alg».proof.Proof.RefRun
import proofs.«408928_j60928406061363_3_alg».proof.Proof.RefRead
import proofs.«408928_j60928406061363_3_alg».proof.Proof.RefValue
import proofs.«408928_j60928406061363_3_alg».proof.Proof.KernelValue
import proofs.«408928_j60928406061363_3_alg».proof.Proof.Precond
import proofs.«408928_j60928406061363_3_alg».proof.Proof.Algebra

noncomputable section

namespace Cert.Proof.Claims

open Idealize.ShloMosaic Idealize.ShloMosaic.TcCoe Idealize.ShloMosaic.ValueIdx Idealize.SL.Sem
open Cert.LabelSmooth Cert.ERealBN

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- On real logits and weights and class-number targets the two spellings of every row's loss agree, so the two whole
    losses are one value. -/
theorem total_eq (x : (⟨2, ![32768, 2048]⟩ : Shape).Idx → EReal) (t : (⟨1, ![32768]⟩ : Shape).Idx → BitVec 32)
    (w : (⟨1, ![2048]⟩ : Shape).Idx → EReal) (hx : ∀ i, IsReal (x i)) (hw : ∀ j, IsReal (w j)) :
    total (kerLoss x t w) (wts t w) = total (refLoss x t w) (wts t w) := by
  have h : kerLoss x t w = refLoss x t w := by
    funext i
    exact lossK_eq_lossR (rowOf x i) (fun j => hx _) (cls (t (ix1 i))) (wts t w i) (hw _)
  rw [h]

theorem algebraic : Cert.algebraic_KernelIdeal_ReferenceIdeal := by
  intro m ρ m' ρ' hpre hagree
  have hdec := fun c => of_pre _ _ _ (hpre c)
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v19, Cert.KernelIdeal.KValue.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v24_eq, (hagree c).1, (hagree c).2.1, (hagree c).2.2,
    Cert.ReferenceIdeal.RefValue.ref_value _ _ _ (fun i => (hdec c).2.2 (ix1 i))]
  refine Eq.trans ?_ (Cert.KernelIdeal.KValue.kernel_value m c (fun i => (hdec c).2.2 (ix1 i))).symm
  funext _
  exact (total_eq _ _ _ (hdec c).1 (hdec c).2.1).symm

end Cert.Proof.Claims

end
-- ==== Proof.lean ====
/- The certificate of the label-smoothing loss kernel against its jnp reference: under the precondition (every logit and
   every class weight finite, every target a class number in [0, 2048)) the three programs run and leave their arguments
   unchanged, the idealization rewrote nothing, and the idealized kernel and the idealized reference end at equal results:
   both at (∑ᵢ lossᵢ) / (∑ᵢ wᵢ), with lossᵢ = 0.95f · nllᵢ · wᵢ + 0.05f · smoothᵢ. The claims are proved in Proof/Claims.lean. -/
import proofs.«408928_j60928406061363_3_alg».proof.Defs
import proofs.«408928_j60928406061363_3_alg».proof.Proof.Gen.Kernel
import proofs.«408928_j60928406061363_3_alg».proof.Proof.Gen.Kernel.Skeleton
import proofs.«408928_j60928406061363_3_alg».proof.Proof.Gen.Kernel.Launch
import proofs.«408928_j60928406061363_3_alg».proof.Proof.Gen.Kernel.Points
import proofs.«408928_j60928406061363_3_alg».proof.Proof.Gen.Kernel.Frame
import proofs.«408928_j60928406061363_3_alg».proof.Proof.Gen.KernelIdeal
import proofs.«408928_j60928406061363_3_alg».proof.Proof.Gen.KernelIdeal.Skeleton
import proofs.«408928_j60928406061363_3_alg».proof.Proof.Gen.KernelIdeal.Launch
import proofs.«408928_j60928406061363_3_alg».proof.Proof.Gen.KernelIdeal.Points
import proofs.«408928_j60928406061363_3_alg».proof.Proof.Gen.KernelIdeal.Frame
import proofs.«408928_j60928406061363_3_alg».proof.Proof.Gen.ReferenceIdeal
import proofs.«408928_j60928406061363_3_alg».proof.Proof.Gen.Pre_finite_inputs
import proofs.«408928_j60928406061363_3_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
